-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1x28x28 : Shape := ⟨4, ![16384, 1, 28, 28]⟩
abbrev S784x1440 : Shape := ⟨2, ![784, 1440]⟩
abbrev S1x1440 : Shape := ⟨2, ![1, 1440]⟩
abbrev S1440x320 : Shape := ⟨2, ![1440, 320]⟩
abbrev S1x320 : Shape := ⟨2, ![1, 320]⟩
abbrev S320x128 : Shape := ⟨2, ![320, 128]⟩
abbrev S1x128 : Shape := ⟨2, ![1, 128]⟩
abbrev S_ : Shape := ⟨0, ![]⟩

class Facts : Prop where
  bcast_S_S16384x1x28x28 : S_.BroadcastsInDim S16384x1x28x28 (![] : Fin 0 → Fin S16384x1x28x28.rank)
  reducesTo_S16384x1x28x28_S_d0_1_2_3 : S16384x1x28x28.ReducesTo [0, 1, 2, 3] S_
  h_S_ : 0 < S_.numel
  bitsLt_bf16_f32 : FTy.bits .bf16 < FTy.bits .f32
  bcast_S_S784x1440 : S_.BroadcastsInDim S784x1440 (![] : Fin 0 → Fin S784x1440.rank)
  reducesTo_S784x1440_S_d0_1 : S784x1440.ReducesTo [0, 1] S_
  bcast_S_S1x1440 : S_.BroadcastsInDim S1x1440 (![] : Fin 0 → Fin S1x1440.rank)
  reducesTo_S1x1440_S_d0_1 : S1x1440.ReducesTo [0, 1] S_
  bcast_S_S1440x320 : S_.BroadcastsInDim S1440x320 (![] : Fin 0 → Fin S1440x320.rank)
  reducesTo_S1440x320_S_d0_1 : S1440x320.ReducesTo [0, 1] S_
  bcast_S_S1x320 : S_.BroadcastsInDim S1x320 (![] : Fin 0 → Fin S1x320.rank)
  reducesTo_S1x320_S_d0_1 : S1x320.ReducesTo [0, 1] S_
  bcast_S_S320x128 : S_.BroadcastsInDim S320x128 (![] : Fin 0 → Fin S320x128.rank)
  reducesTo_S320x128_S_d0_1 : S320x128.ReducesTo [0, 1] S_
  bcast_S_S1x128 : S_.BroadcastsInDim S1x128 (![] : Fin 0 → Fin S1x128.rank)
  reducesTo_S1x128_S_d0_1 : S1x128.ReducesTo [0, 1] S_

variable [Facts]

def fn_part4 {F : FTy → Type} [FloatOps F] (main_v67 : IVec S_ 1) (main_v70 : IVec S1x128 1) : IVec S_ 1 :=
  let main_c_23 : IVec S_ 1 := constantI S_ 1 1#1
  let main_v71 : IVec S_ 1 := (fun x v => Host.reduce IntOp.andi x v reducesTo_S1x128_S_d0_1 h_S_) main_v70 main_c_23
  let main_v72 : IVec S_ 1 := andi main_v67 main_v71
  main_v72

def fn_part3 {F : FTy → Type} [FloatOps F] (main_arg10 : FVec F S1x320 .f32) (main_arg11 : FVec F S320x128 .bf16) (main_arg12 : FVec F S1x128 .f32) (main_v50 : IVec S_ 1) (main_v52 : FVec F S1440x320 .f32) (main_cst_16 : FVec F S_ .f32) : IVec S_ 1 :=
  let main_v53 : FVec F S1440x320 .f32 := broadcastInDim S1440x320 ![] bcast_S_S1440x320 main_cst_16
  let main_v54 : IVec S1440x320 1 := cmpf .olt main_v52 main_v53
  let main_c_17 : IVec S_ 1 := constantI S_ 1 1#1
  let main_v55 : IVec S_ 1 := (fun x v => Host.reduce IntOp.andi x v reducesTo_S1440x320_S_d0_1 h_S_) main_v54 main_c_17
  let main_v56 : IVec S_ 1 := andi main_v50 main_v55
  let main_v57 : FVec F S1x320 .f32 := Host.absf main_arg10
  let main_cst_18 : FVec F S_ .f32 := constant S_ .f32 0x7F800000#32
  let main_v58 : FVec F S1x320 .f32 := broadcastInDim S1x320 ![] bcast_S_S1x320 main_cst_18
  let main_v59 : IVec S1x320 1 := cmpf .olt main_v57 main_v58
  let main_c_19 : IVec S_ 1 := constantI S_ 1 1#1
  let main_v60 : IVec S_ 1 := (fun x v => Host.reduce IntOp.andi x v reducesTo_S1x320_S_d0_1 h_S_) main_v59 main_c_19
  let main_v61 : IVec S_ 1 := andi main_v56 main_v60
  let main_v62 : FVec F S320x128 .f32 := (extf .f32 · bitsLt_bf16_f32) main_arg11
  let main_v63 : FVec F S320x128 .f32 := Host.absf main_v62
  let main_cst_20 : FVec F S_ .f32 := constant S_ .f32 0x7F800000#32
  let main_v64 : FVec F S320x128 .f32 := broadcastInDim S320x128 ![] bcast_S_S320x128 main_cst_20
  let main_v65 : IVec S320x128 1 := cmpf .olt main_v63 main_v64
  let main_c_21 : IVec S_ 1 := constantI S_ 1 1#1
  let main_v66 : IVec S_ 1 := (fun x v => Host.reduce IntOp.andi x v reducesTo_S320x128_S_d0_1 h_S_) main_v65 main_c_21
  let main_v67 : IVec S_ 1 := andi main_v61 main_v66
  let main_v68 : FVec F S1x128 .f32 := Host.absf main_arg12
  let main_cst_22 : FVec F S_ .f32 := constant S_ .f32 0x7F800000#32
  let main_v69 : FVec F S1x128 .f32 := broadcastInDim S1x128 ![] bcast_S_S1x128 main_cst_22
  let main_v70 : IVec S1x128 1 := cmpf .olt main_v68 main_v69
  fn_part4 (F := F) main_v67 main_v70

def fn_part2 {F : FTy → Type} [FloatOps F] (main_arg7 : FVec F S1440x320 .bf16) (main_arg8 : FVec F S1440x320 .bf16) (main_arg9 : FVec F S1440x320 .bf16) (main_arg10 : FVec F S1x320 .f32) (main_arg11 : FVec F S320x128 .bf16) (main_arg12 : FVec F S1x128 .f32) (main_v32 : IVec S_ 1) (main_v34 : FVec F S1440x320 .f32) (main_cst_10 : FVec F S_ .f32) : IVec S_ 1 :=
  let main_v35 : FVec F S1440x320 .f32 := broadcastInDim S1440x320 ![] bcast_S_S1440x320 main_cst_10
  let main_v36 : IVec S1440x320 1 := cmpf .olt main_v34 main_v35
  let main_c_11 : IVec S_ 1 := constantI S_ 1 1#1
  let main_v37 : IVec S_ 1 := (fun x v => Host.reduce IntOp.andi x v reducesTo_S1440x320_S_d0_1 h_S_) main_v36 main_c_11
  let main_v38 : IVec S_ 1 := andi main_v32 main_v37
  let main_v39 : FVec F S1440x320 .f32 := (extf .f32 · bitsLt_bf16_f32) main_arg7
  let main_v40 : FVec F S1440x320 .f32 := Host.absf main_v39
  let main_cst_12 : FVec F S_ .f32 := constant S_ .f32 0x7F800000#32
  let main_v41 : FVec F S1440x320 .f32 := broadcastInDim S1440x320 ![] bcast_S_S1440x320 main_cst_12
  let main_v42 : IVec S1440x320 1 := cmpf .olt main_v40 main_v41
  let main_c_13 : IVec S_ 1 := constantI S_ 1 1#1
  let main_v43 : IVec S_ 1 := (fun x v => Host.reduce IntOp.andi x v reducesTo_S1440x320_S_d0_1 h_S_) main_v42 main_c_13
  let main_v44 : IVec S_ 1 := andi main_v38 main_v43
  let main_v45 : FVec F S1440x320 .f32 := (extf .f32 · bitsLt_bf16_f32) main_arg8
  let main_v46 : FVec F S1440x320 .f32 := Host.absf main_v45
  let main_cst_14 : FVec F S_ .f32 := constant S_ .f32 0x7F800000#32
  let main_v47 : FVec F S1440x320 .f32 := broadcastInDim S1440x320 ![] bcast_S_S1440x320 main_cst_14
  let main_v48 : IVec S1440x320 1 := cmpf .olt main_v46 main_v47
  let main_c_15 : IVec S_ 1 := constantI S_ 1 1#1
  let main_v49 : IVec S_ 1 := (fun x v => Host.reduce IntOp.andi x v reducesTo_S1440x320_S_d0_1 h_S_) main_v48 main_c_15
  let main_v50 : IVec S_ 1 := andi main_v44 main_v49
  let main_v51 : FVec F S1440x320 .f32 := (extf .f32 · bitsLt_bf16_f32) main_arg9
  let main_v52 : FVec F S1440x320 .f32 := Host.absf main_v51
  let main_cst_16 : FVec F S_ .f32 := constant S_ .f32 0x7F800000#32
  fn_part3 (F := F) main_arg10 main_arg11 main_arg12 main_v50 main_v52 main_cst_16

def fn_part1 {F : FTy → Type} [FloatOps F] (main_arg4 : FVec F S784x1440 .bf16) (main_arg5 : FVec F S1x1440 .f32) (main_arg6 : FVec F S1440x320 .bf16) (main_arg7 : FVec F S1440x320 .bf16) (main_arg8 : FVec F S1440x320 .bf16) (main_arg9 : FVec F S1440x320 .bf16) (main_arg10 : FVec F S1x320 .f32) (main_arg11 : FVec F S320x128 .bf16) (main_arg12 : FVec F S1x128 .f32) (main_v15 : IVec S_ 1) (main_v17 : FVec F S784x1440 .f32) : IVec S_ 1 :=
  let main_cst_4 : FVec F S_ .f32 := constant S_ .f32 0x7F800000#32
  let main_v18 : FVec F S784x1440 .f32 := broadcastInDim S784x1440 ![] bcast_S_S784x1440 main_cst_4
  let main_v19 : IVec S784x1440 1 := cmpf .olt main_v17 main_v18
  let main_c_5 : IVec S_ 1 := constantI S_ 1 1#1
  let main_v20 : IVec S_ 1 := (fun x v => Host.reduce IntOp.andi x v reducesTo_S784x1440_S_d0_1 h_S_) main_v19 main_c_5
  let main_v21 : IVec S_ 1 := andi main_v15 main_v20
  let main_v22 : FVec F S784x1440 .f32 := (extf .f32 · bitsLt_bf16_f32) main_arg4
  let main_v23 : FVec F S784x1440 .f32 := Host.absf main_v22
  let main_cst_6 : FVec F S_ .f32 := constant S_ .f32 0x7F800000#32
  let main_v24 : FVec F S784x1440 .f32 := broadcastInDim S784x1440 ![] bcast_S_S784x1440 main_cst_6
  let main_v25 : IVec S784x1440 1 := cmpf .olt main_v23 main_v24
  let main_c_7 : IVec S_ 1 := constantI S_ 1 1#1
  let main_v26 : IVec S_ 1 := (fun x v => Host.reduce IntOp.andi x v reducesTo_S784x1440_S_d0_1 h_S_) main_v25 main_c_7
  let main_v27 : IVec S_ 1 := andi main_v21 main_v26
  let main_v28 : FVec F S1x1440 .f32 := Host.absf main_arg5
  let main_cst_8 : FVec F S_ .f32 := constant S_ .f32 0x7F800000#32
  let main_v29 : FVec F S1x1440 .f32 := broadcastInDim S1x1440 ![] bcast_S_S1x1440 main_cst_8
  let main_v30 : IVec S1x1440 1 := cmpf .olt main_v28 main_v29
  let main_c_9 : IVec S_ 1 := constantI S_ 1 1#1
  let main_v31 : IVec S_ 1 := (fun x v => Host.reduce IntOp.andi x v reducesTo_S1x1440_S_d0_1 h_S_) main_v30 main_c_9
  let main_v32 : IVec S_ 1 := andi main_v27 main_v31
  let main_v33 : FVec F S1440x320 .f32 := (extf .f32 · bitsLt_bf16_f32) main_arg6
  let main_v34 : FVec F S1440x320 .f32 := Host.absf main_v33
  let main_cst_10 : FVec F S_ .f32 := constant S_ .f32 0x7F800000#32
  fn_part2 (F := F) main_arg7 main_arg8 main_arg9 main_arg10 main_arg11 main_arg12 main_v32 main_v34 main_cst_10

def fn {F : FTy → Type} [FloatOps F] (main_arg0 : FVec F S16384x1x28x28 .f32) (main_arg1 : FVec F S784x1440 .bf16) (main_arg2 : FVec F S784x1440 .bf16) (main_arg3 : FVec F S784x1440 .bf16) (main_arg4 : FVec F S784x1440 .bf16) (main_arg5 : FVec F S1x1440 .f32) (main_arg6 : FVec F S1440x320 .bf16) (main_arg7 : FVec F S1440x320 .bf16) (main_arg8 : FVec F S1440x320 .bf16) (main_arg9 : FVec F S1440x320 .bf16) (main_arg10 : FVec F S1x320 .f32) (main_arg11 : FVec F S320x128 .bf16) (main_arg12 : FVec F S1x128 .f32) : IVec S_ 1 :=
  let main_v0 : FVec F S16384x1x28x28 .f32 := Host.absf main_arg0
  let main_cst : FVec F S_ .f32 := constant S_ .f32 0x7F800000#32
  let main_v1 : FVec F S16384x1x28x28 .f32 := broadcastInDim S16384x1x28x28 ![] bcast_S_S16384x1x28x28 main_cst
  let main_v2 : IVec S16384x1x28x28 1 := cmpf .olt main_v0 main_v1
  let main_c : IVec S_ 1 := constantI S_ 1 1#1
  let main_v3 : IVec S_ 1 := (fun x v => Host.reduce IntOp.andi x v reducesTo_S16384x1x28x28_S_d0_1_2_3 h_S_) main_v2 main_c
  let main_v4 : FVec F S784x1440 .f32 := (extf .f32 · bitsLt_bf16_f32) main_arg1
  let main_v5 : FVec F S784x1440 .f32 := Host.absf main_v4
  let main_cst_0 : FVec F S_ .f32 := constant S_ .f32 0x7F800000#32
  let main_v6 : FVec F S784x1440 .f32 := broadcastInDim S784x1440 ![] bcast_S_S784x1440 main_cst_0
  let main_v7 : IVec S784x1440 1 := cmpf .olt main_v5 main_v6
  let main_c_1 : IVec S_ 1 := constantI S_ 1 1#1
  let main_v8 : IVec S_ 1 := (fun x v => Host.reduce IntOp.andi x v reducesTo_S784x1440_S_d0_1 h_S_) main_v7 main_c_1
  let main_v9 : IVec S_ 1 := andi main_v3 main_v8
  let main_v10 : FVec F S784x1440 .f32 := (extf .f32 · bitsLt_bf16_f32) main_arg2
  let main_v11 : FVec F S784x1440 .f32 := Host.absf main_v10
  let main_cst_2 : FVec F S_ .f32 := constant S_ .f32 0x7F800000#32
  let main_v12 : FVec F S784x1440 .f32 := broadcastInDim S784x1440 ![] bcast_S_S784x1440 main_cst_2
  let main_v13 : IVec S784x1440 1 := cmpf .olt main_v11 main_v12
  let main_c_3 : IVec S_ 1 := constantI S_ 1 1#1
  let main_v14 : IVec S_ 1 := (fun x v => Host.reduce IntOp.andi x v reducesTo_S784x1440_S_d0_1 h_S_) main_v13 main_c_3
  let main_v15 : IVec S_ 1 := andi main_v9 main_v14
  let main_v16 : FVec F S784x1440 .f32 := (extf .f32 · bitsLt_bf16_f32) main_arg3
  let main_v17 : FVec F S784x1440 .f32 := Host.absf main_v16
  fn_part1 (F := F) main_arg4 main_arg5 main_arg6 main_arg7 main_arg8 main_arg9 main_arg10 main_arg11 main_arg12 main_v15 main_v17
-- ==== Kernel.lean ====
abbrev S16384x1x28x28 : Shape := ⟨4, ![16384, 1, 28, 28]⟩
abbrev S784x1440 : Shape := ⟨2, ![784, 1440]⟩
abbrev S1x1440 : Shape := ⟨2, ![1, 1440]⟩
abbrev S1440x320 : Shape := ⟨2, ![1440, 320]⟩
abbrev S1x320 : Shape := ⟨2, ![1, 320]⟩
abbrev S320x128 : Shape := ⟨2, ![320, 128]⟩
abbrev S1x128 : Shape := ⟨2, ![1, 128]⟩
abbrev S16384x784 : Shape := ⟨2, ![16384, 784]⟩
abbrev S784x5760 : Shape := ⟨2, ![784, 5760]⟩
abbrev S1440x1280 : Shape := ⟨2, ![1440, 1280]⟩
abbrev S16384x128 : Shape := ⟨2, ![16384, 128]⟩
abbrev S256x784 : Shape := ⟨2, ![256, 784]⟩
abbrev S256x128 : Shape := ⟨2, ![256, 128]⟩
abbrev S256x5760 : Shape := ⟨2, ![256, 5760]⟩
abbrev S256x1440 : Shape := ⟨2, ![256, 1440]⟩
abbrev S256x1280 : Shape := ⟨2, ![256, 1280]⟩
abbrev S256x320 : Shape := ⟨2, ![256, 320]⟩
abbrev S256 : Shape := ⟨1, ![256]⟩
abbrev S256x1 : Shape := ⟨2, ![256, 1]⟩
abbrev S16384x10 : Shape := ⟨2, ![16384, 10]⟩

abbrev nBuf : Space → Nat
  | .hbm => 18
  | .vmem => 10
  | .smem => 0
  | _ => 0

abbrev bufTy : (tb : Table) → Fin (tcTables nBuf tb) → BufTy
  | .hbm, ⟨0, _⟩ => ⟨S16384x1x28x28, .f32⟩
  | .hbm, ⟨1, _⟩ => ⟨S784x1440, .bf16⟩
  | .hbm, ⟨2, _⟩ => ⟨S784x1440, .bf16⟩
  | .hbm, ⟨3, _⟩ => ⟨S784x1440, .bf16⟩
  | .hbm, ⟨4, _⟩ => ⟨S784x1440, .bf16⟩
  | .hbm, ⟨5, _⟩ => ⟨S1x1440, .f32⟩
  | .hbm, ⟨6, _⟩ => ⟨S1440x320, .bf16⟩
  | .hbm, ⟨7, _⟩ => ⟨S1440x320, .bf16⟩
  | .hbm, ⟨8, _⟩ => ⟨S1440x320, .bf16⟩
  | .hbm, ⟨9, _⟩ => ⟨S1440x320, .bf16⟩
  | .hbm, ⟨10, _⟩ => ⟨S1x320, .f32⟩
  | .hbm, ⟨11, _⟩ => ⟨S320x128, .bf16⟩
  | .hbm, ⟨12, _⟩ => ⟨S1x128, .f32⟩
  | .hbm, ⟨13, _⟩ => ⟨S16384x784, .f32⟩
  | .hbm, ⟨14, _⟩ => ⟨S784x5760, .bf16⟩
  | .hbm, ⟨15, _⟩ => ⟨S1440x1280, .bf16⟩
  | .hbm, ⟨16, _⟩ => ⟨S16384x128, .f32⟩
  | .hbm, ⟨17, _⟩ => ⟨S16384x10, .f32⟩
  | .local _ .vmem, ⟨0, _⟩ => ⟨S256x784, .f32⟩
  | .local _ .vmem, ⟨1, _⟩ => ⟨S256x784, .f32⟩
  | .local _ .vmem, ⟨2, _⟩ => ⟨S784x5760, .bf16⟩
  | .local _ .vmem, ⟨3, _⟩ => ⟨S1x1440, .f32⟩
  | .local _ .vmem, ⟨4, _⟩ => ⟨S1440x1280, .bf16⟩
  | .local _ .vmem, ⟨5, _⟩ => ⟨S1x320, .f32⟩
  | .local _ .vmem, ⟨6, _⟩ => ⟨S320x128, .bf16⟩
  | .local _ .vmem, ⟨7, _⟩ => ⟨S1x128, .f32⟩
  | .local _ .vmem, ⟨8, _⟩ => ⟨S256x128, .f32⟩
  | .local _ .vmem, ⟨9, _⟩ => ⟨S256x128, .f32⟩
  | _, _ => ⟨S16384x1x28x28, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x784 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S784x5760 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1440 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1440x1280 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x320 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S320x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  shapeCasts_S16384x1x28x28_S16384x784 : S16384x1x28x28.ShapeCasts S16384x784
  concatenates_S784x1440_S784x1440_S784x1440_S784x1440_S784x5760_d1 : Shape.Concatenates [S784x1440, S784x1440, S784x1440, S784x1440] S784x5760 1
  concatenates_S1440x320_S1440x320_S1440x320_S1440x320_S1440x1280_d1 : Shape.Concatenates [S1440x320, S1440x320, S1440x320, S1440x320] S1440x1280 1
  inb_S256x784_S256x784_0_0 : ∀ a, (![0, 0] : Fin 2 → Nat) a + S256x784.size a ≤ S256x784.size a
  h_S256x784 : 0 < S256x784.numel
  shapeCasts_S256x784_S256x784 : S256x784.ShapeCasts S256x784
  bitsLt_bf16_f32 : FTy.bits .bf16 < FTy.bits .f32
  inb_S784x5760_S784x5760_0_0 : ∀ a, (![0, 0] : Fin 2 → Nat) a + S784x5760.size a ≤ S784x5760.size a
  h_S784x5760 : 0 < S784x5760.numel
  shapeCasts_S784x5760_S784x5760 : S784x5760.ShapeCasts S784x5760
  slices_S256x5760_o0_0_S256x1440 : S256x5760.Slices ![0, 0] S256x1440
  slices_S256x5760_o0_1440_S256x1440 : S256x5760.Slices ![0, 1440] S256x1440
  slices_S256x5760_o0_2880_S256x1440 : S256x5760.Slices ![0, 2880] S256x1440
  slices_S256x5760_o0_4320_S256x1440 : S256x5760.Slices ![0, 4320] S256x1440
  inb_S1x1440_S1x1440_0_0 : ∀ a, (![0, 0] : Fin 2 → Nat) a + S1x1440.size a ≤ S1x1440.size a
  h_S1x1440 : 0 < S1x1440.numel
  broadcasts_S1x1440_S256x1440 : S1x1440.Broadcasts S256x1440
  inb_S1440x1280_S1440x1280_0_0 : ∀ a, (![0, 0] : Fin 2 → Nat) a + S1440x1280.size a ≤ S1440x1280.size a
  h_S1440x1280 : 0 < S1440x1280.numel
  shapeCasts_S1440x1280_S1440x1280 : S1440x1280.ShapeCasts S1440x1280
  slices_S256x1280_o0_0_S256x320 : S256x1280.Slices ![0, 0] S256x320
  slices_S256x1280_o0_320_S256x320 : S256x1280.Slices ![0, 320] S256x320
  slices_S256x1280_o0_640_S256x320 : S256x1280.Slices ![0, 640] S256x320
  slices_S256x1280_o0_960_S256x320 : S256x1280.Slices ![0, 960] S256x320
  inb_S1x320_S1x320_0_0 : ∀ a, (![0, 0] : Fin 2 → Nat) a + S1x320.size a ≤ S1x320.size a
  h_S1x320 : 0 < S1x320.numel
  broadcasts_S1x320_S256x320 : S1x320.Broadcasts S256x320
  inb_S320x128_S320x128_0_0 : ∀ a, (![0, 0] : Fin 2 → Nat) a + S320x128.size a ≤ S320x128.size a
  h_S320x128 : 0 < S320x128.numel
  inb_S1x128_S1x128_0_0 : ∀ a, (![0, 0] : Fin 2 → Nat) a + S1x128.size a ≤ S1x128.size a
  h_S1x128 : 0 < S1x128.numel
  broadcasts_S1x128_S256x128 : S1x128.Broadcasts S256x128
  reduces_S256x128_S256 : S256x128.Reduces [1] S256
  shapeCasts_S256_S256x1 : S256.ShapeCasts S256x1
  broadcasts_S256x1_S256x128 : S256x1.Broadcasts S256x128
  inb_S256x128_S256x128_0_0 : ∀ a, (![0, 0] : Fin 2 → Nat) a + S256x128.size a ≤ S256x128.size a
  h_S256x128 : 0 < S256x128.numel
  slices_S16384x128_S16384x10_0_0 : S16384x128.Slices ![0, 0] S16384x10
  dot_S256x784_S784x5760_S256x5760_1_0_0_1_n_n_wf : DotDims.WF S256x784 S784x5760 S256x5760 [1] [0] [0] [1] [] []
  dot_S256x1440_S1440x1280_S256x1280_1_0_0_1_n_n_wf : DotDims.WF S256x1440 S1440x1280 S256x1280 [1] [0] [0] [1] [] []
  dot_S256x320_S320x128_S256x128_1_0_0_1_n_n_wf : DotDims.WF S256x320 S320x128 S256x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x784.size a ≤ S16384x784.size a
  hwx0_0 : ∀ i : grid0.Coords, EltTy.bits .f32 = 32 ∨ (Rect.block (s := S16384x784) S256x784.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S784x5760.size a ≤ S784x5760.size a
  hwx0_1 : ∀ i : grid0.Coords, EltTy.bits .bf16 = 32 ∨ (Rect.block (s := S784x5760) S784x5760.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1440.size a ≤ S1x1440.size a
  hwx0_2 : ∀ i : grid0.Coords, EltTy.bits .f32 = 32 ∨ (Rect.block (s := S1x1440) S1x1440.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1440x1280.size a ≤ S1440x1280.size a
  hwx0_3 : ∀ i : grid0.Coords, EltTy.bits .bf16 = 32 ∨ (Rect.block (s := S1440x1280) S1440x1280.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x320.size a ≤ S1x320.size a
  hwx0_4 : ∀ i : grid0.Coords, EltTy.bits .f32 = 32 ∨ (Rect.block (s := S1x320) S1x320.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S320x128.size a ≤ S320x128.size a
  hwx0_5 : ∀ i : grid0.Coords, EltTy.bits .bf16 = 32 ∨ (Rect.block (s := S320x128) S320x128.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S256x128.size a ≤ S16384x128.size a
  hwx0_7 : ∀ i : grid0.Coords, EltTy.bits .f32 = 32 ∨ (Rect.block (s := S16384x128) S256x128.size (cc0_transform_7 i) (hinb0_7 i)).WholeWords (EltTy.packing .f32)

variable [Facts₀]

def dot_S256x784_S784x5760_S256x5760_1_0_0_1_n_n : DotDims S256x784 S784x5760 S256x5760 where
  lhsContracting := [1]
  rhsContracting := [0]
  lhsNonContracting := [0]
  rhsNonContracting := [1]
  lhsBatch := []
  rhsBatch := []
  wf := dot_S256x784_S784x5760_S256x5760_1_0_0_1_n_n_wf
def dot_S256x1440_S1440x1280_S256x1280_1_0_0_1_n_n : DotDims S256x1440 S1440x1280 S256x1280 where
  lhsContracting := [1]
  rhsContracting := [0]
  lhsNonContracting := [0]
  rhsNonContracting := [1]
  lhsBatch := []
  rhsBatch := []
  wf := dot_S256x1440_S1440x1280_S256x1280_1_0_0_1_n_n_wf
def dot_S256x320_S320x128_S256x128_1_0_0_1_n_n : DotDims S256x320 S320x128 S256x128 where
  lhsContracting := [1]
  rhsContracting := [0]
  lhsNonContracting := [0]
  rhsNonContracting := [1]
  lhsBatch := []
  rhsBatch := []
  wf := dot_S256x320_S320x128_S256x128_1_0_0_1_n_n_wf

abbrev win0_0 : Pipeline.Window sig grid0 :=
  Pipeline.Window.ofSpec (Memref.whole main_v0) S256x784.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S784x5760.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S1x1440.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1440x1280.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg10) S1x320.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg11) S320x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg12) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v3) S256x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S16384x1x28x28 : Shape := ⟨4, ![16384, 1, 28, 28]⟩
abbrev S784x1440 : Shape := ⟨2, ![784, 1440]⟩
abbrev S1x1440 : Shape := ⟨2, ![1, 1440]⟩
abbrev S1440x320 : Shape := ⟨2, ![1440, 320]⟩
abbrev S1x320 : Shape := ⟨2, ![1, 320]⟩
abbrev S320x128 : Shape := ⟨2, ![320, 128]⟩
abbrev S1x128 : Shape := ⟨2, ![1, 128]⟩
abbrev S16384x784 : Shape := ⟨2, ![16384, 784]⟩
abbrev S16384x128 : Shape := ⟨2, ![16384, 128]⟩
abbrev S128x784 : Shape := ⟨2, ![128, 784]⟩
abbrev S128x128 : Shape := ⟨2, ![128, 128]⟩
abbrev S128x1440 : Shape := ⟨2, ![128, 1440]⟩
abbrev S128x320 : Shape := ⟨2, ![128, 320]⟩
abbrev S128 : Shape := ⟨1, ![128]⟩
abbrev S128x1 : Shape := ⟨2, ![128, 1]⟩
abbrev S16384x10 : Shape := ⟨2, ![16384, 10]⟩

abbrev nBuf : Space → Nat
  | .hbm => 17
  | .vmem => 16
  | .smem => 0
  | _ => 0

abbrev bufTy : (tb : Table) → Fin (tcTables nBuf tb) → BufTy
  | .hbm, ⟨0, _⟩ => ⟨S16384x1x28x28, .f32⟩
  | .hbm, ⟨1, _⟩ => ⟨S784x1440, .bf16⟩
  | .hbm, ⟨2, _⟩ => ⟨S784x1440, .bf16⟩
  | .hbm, ⟨3, _⟩ => ⟨S784x1440, .bf16⟩
  | .hbm, ⟨4, _⟩ => ⟨S784x1440, .bf16⟩
  | .hbm, ⟨5, _⟩ => ⟨S1x1440, .f32⟩
  | .hbm, ⟨6, _⟩ => ⟨S1440x320, .bf16⟩
  | .hbm, ⟨7, _⟩ => ⟨S1440x320, .bf16⟩
  | .hbm, ⟨8, _⟩ => ⟨S1440x320, .bf16⟩
  | .hbm, ⟨9, _⟩ => ⟨S1440x320, .bf16⟩
  | .hbm, ⟨10, _⟩ => ⟨S1x320, .f32⟩
  | .hbm, ⟨11, _⟩ => ⟨S320x128, .bf16⟩
  | .hbm, ⟨12, _⟩ => ⟨S1x128, .f32⟩
  | .hbm, ⟨13, _⟩ => ⟨S16384x784, .f32⟩
  | .hbm, ⟨14, _⟩ => ⟨S16384x784, .bf16⟩
  | .hbm, ⟨15, _⟩ => ⟨S16384x128, .f32⟩
  | .hbm, ⟨16, _⟩ => ⟨S16384x10, .f32⟩
  | .local _ .vmem, ⟨0, _⟩ => ⟨S128x784, .bf16⟩
  | .local _ .vmem, ⟨1, _⟩ => ⟨S128x784, .bf16⟩
  | .local _ .vmem, ⟨2, _⟩ => ⟨S784x1440, .bf16⟩
  | .local _ .vmem, ⟨3, _⟩ => ⟨S784x1440, .bf16⟩
  | .local _ .vmem, ⟨4, _⟩ => ⟨S784x1440, .bf16⟩
  | .local _ .vmem, ⟨5, _⟩ => ⟨S784x1440, .bf16⟩
  | .local _ .vmem, ⟨6, _⟩ => ⟨S1x1440, .f32⟩
  | .local _ .vmem, ⟨7, _⟩ => ⟨S1440x320, .bf16⟩
  | .local _ .vmem, ⟨8, _⟩ => ⟨S1440x320, .bf16⟩
  | .local _ .vmem, ⟨9, _⟩ => ⟨S1440x320, .bf16⟩
  | .local _ .vmem, ⟨10, _⟩ => ⟨S1440x320, .bf16⟩
  | .local _ .vmem, ⟨11, _⟩ => ⟨S1x320, .f32⟩
  | .local _ .vmem, ⟨12, _⟩ => ⟨S320x128, .bf16⟩
  | .local _ .vmem, ⟨13, _⟩ => ⟨S1x128, .f32⟩
  | .local _ .vmem, ⟨14, _⟩ => ⟨S128x128, .f32⟩
  | .local _ .vmem, ⟨15, _⟩ => ⟨S128x128, .f32⟩
  | _, _ => ⟨S16384x1x28x28, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg13_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem13_1 : DmaSem sig := 15

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x784 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S784x1440 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S784x1440 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S784x1440 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S784x1440 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1440 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1440x320 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1440x320 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1440x320 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1440x320 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x320 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S320x128 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S128x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

class Facts₀ : Prop where
  shapeCasts_S16384x1x28x28_S16384x784 : S16384x1x28x28.ShapeCasts S16384x784
  bitsLt_bf16_f32 : FTy.bits .bf16 < FTy.bits .f32
  inb_S128x784_S128x784_0_0 : ∀ a, (![0, 0] : Fin 2 → Nat) a + S128x784.size a ≤ S128x784.size a
  h_S128x784 : 0 < S128x784.numel
  shapeCasts_S128x784_S128x784 : S128x784.ShapeCasts S128x784
  inb_S784x1440_S784x1440_0_0 : ∀ a, (![0, 0] : Fin 2 → Nat) a + S784x1440.size a ≤ S784x1440.size a
  h_S784x1440 : 0 < S784x1440.numel
  inb_S1x1440_S1x1440_0_0 : ∀ a, (![0, 0] : Fin 2 → Nat) a + S1x1440.size a ≤ S1x1440.size a
  h_S1x1440 : 0 < S1x1440.numel
  broadcasts_S1x1440_S128x1440 : S1x1440.Broadcasts S128x1440
  inb_S1440x320_S1440x320_0_0 : ∀ a, (![0, 0] : Fin 2 → Nat) a + S1440x320.size a ≤ S1440x320.size a
  h_S1440x320 : 0 < S1440x320.numel
  inb_S1x320_S1x320_0_0 : ∀ a, (![0, 0] : Fin 2 → Nat) a + S1x320.size a ≤ S1x320.size a
  h_S1x320 : 0 < S1x320.numel
  broadcasts_S1x320_S128x320 : S1x320.Broadcasts S128x320
  inb_S320x128_S320x128_0_0 : ∀ a, (![0, 0] : Fin 2 → Nat) a + S320x128.size a ≤ S320x128.size a
  h_S320x128 : 0 < S320x128.numel
  inb_S1x128_S1x128_0_0 : ∀ a, (![0, 0] : Fin 2 → Nat) a + S1x128.size a ≤ S1x128.size a
  h_S1x128 : 0 < S1x128.numel
  broadcasts_S1x128_S128x128 : S1x128.Broadcasts S128x128
  reduces_S128x128_S128 : S128x128.Reduces [1] S128
  shapeCasts_S128_S128x1 : S128.ShapeCasts S128x1
  broadcasts_S128x1_S128x128 : S128x1.Broadcasts S128x128
  inb_S128x128_S128x128_0_0 : ∀ a, (![0, 0] : Fin 2 → Nat) a + S128x128.size a ≤ S128x128.size a
  h_S128x128 : 0 < S128x128.numel
  slices_S16384x128_S16384x10_0_0 : S16384x128.Slices ![0, 0] S16384x10
  dot_S128x784_S784x1440_S128x1440_1_0_0_1_n_n_wf : DotDims.WF S128x784 S784x1440 S128x1440 [1] [0] [0] [1] [] []
  dot_S128x1440_S1440x320_S128x320_1_0_0_1_n_n_wf : DotDims.WF S128x1440 S1440x320 S128x320 [1] [0] [0] [1] [] []
  dot_S128x320_S320x128_S128x128_1_0_0_1_n_n_wf : DotDims.WF S128x320 S320x128 S128x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x784.size a ≤ S16384x784.size a
  hwx0_0 : ∀ i : grid0.Coords, EltTy.bits .bf16 = 32 ∨ (Rect.block (s := S16384x784) S128x784.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S784x1440.size a ≤ S784x1440.size a
  hwx0_1 : ∀ i : grid0.Coords, EltTy.bits .bf16 = 32 ∨ (Rect.block (s := S784x1440) S784x1440.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S784x1440.size a ≤ S784x1440.size a
  hwx0_2 : ∀ i : grid0.Coords, EltTy.bits .bf16 = 32 ∨ (Rect.block (s := S784x1440) S784x1440.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S784x1440.size a ≤ S784x1440.size a
  hwx0_3 : ∀ i : grid0.Coords, EltTy.bits .bf16 = 32 ∨ (Rect.block (s := S784x1440) S784x1440.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S784x1440.size a ≤ S784x1440.size a
  hwx0_4 : ∀ i : grid0.Coords, EltTy.bits .bf16 = 32 ∨ (Rect.block (s := S784x1440) S784x1440.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1440.size a ≤ S1x1440.size a
  hwx0_5 : ∀ i : grid0.Coords, EltTy.bits .f32 = 32 ∨ (Rect.block (s := S1x1440) S1x1440.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1440x320.size a ≤ S1440x320.size a
  hwx0_6 : ∀ i : grid0.Coords, EltTy.bits .bf16 = 32 ∨ (Rect.block (s := S1440x320) S1440x320.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1440x320.size a ≤ S1440x320.size a
  hwx0_7 : ∀ i : grid0.Coords, EltTy.bits .bf16 = 32 ∨ (Rect.block (s := S1440x320) S1440x320.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1440x320.size a ≤ S1440x320.size a
  hwx0_8 : ∀ i : grid0.Coords, EltTy.bits .bf16 = 32 ∨ (Rect.block (s := S1440x320) S1440x320.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1440x320.size a ≤ S1440x320.size a
  hwx0_9 : ∀ i : grid0.Coords, EltTy.bits .bf16 = 32 ∨ (Rect.block (s := S1440x320) S1440x320.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x320.size a ≤ S1x320.size a
  hwx0_10 : ∀ i : grid0.Coords, EltTy.bits .f32 = 32 ∨ (Rect.block (s := S1x320) S1x320.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S320x128.size a ≤ S320x128.size a
  hwx0_11 : ∀ i : grid0.Coords, EltTy.bits .bf16 = 32 ∨ (Rect.block (s := S320x128) S320x128.size (cc0_transform_11 i) (hinb0_11 i)).WholeWords (EltTy.packing .bf16)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x128.size a ≤ S1x128.size a
  hwx0_12 : ∀ i : grid0.Coords, EltTy.bits .f32 = 32 ∨ (Rect.block (s := S1x128) S1x128.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S128x128.size a ≤ S16384x128.size a
  hwx0_13 : ∀ i : grid0.Coords, EltTy.bits .f32 = 32 ∨ (Rect.block (s := S16384x128) S128x128.size (cc0_transform_13 i) (hinb0_13 i)).WholeWords (EltTy.packing .f32)

variable [Facts₀]

def dot_S128x784_S784x1440_S128x1440_1_0_0_1_n_n : DotDims S128x784 S784x1440 S128x1440 where
  lhsContracting := [1]
  rhsContracting := [0]
  lhsNonContracting := [0]
  rhsNonContracting := [1]
  lhsBatch := []
  rhsBatch := []
  wf := dot_S128x784_S784x1440_S128x1440_1_0_0_1_n_n_wf
def dot_S128x1440_S1440x320_S128x320_1_0_0_1_n_n : DotDims S128x1440 S1440x320 S128x320 where
  lhsContracting := [1]
  rhsContracting := [0]
  lhsNonContracting := [0]
  rhsNonContracting := [1]
  lhsBatch := []
  rhsBatch := []
  wf := dot_S128x1440_S1440x320_S128x320_1_0_0_1_n_n_wf
def dot_S128x320_S320x128_S128x128_1_0_0_1_n_n : DotDims S128x320 S320x128 S128x128 where
  lhsContracting := [1]
  rhsContracting := [0]
  lhsNonContracting := [0]
  rhsNonContracting := [1]
  lhsBatch := []
  rhsBatch := []
  wf := dot_S128x320_S320x128_S128x128_1_0_0_1_n_n_wf

abbrev win0_0 : Pipeline.Window sig grid0 :=
  Pipeline.Window.ofSpec (Memref.whole main_v1) S128x784.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S784x1440.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S784x1440.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S784x1440.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S784x1440.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S1x1440.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S1440x320.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S1440x320.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S1440x320.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S1440x320.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S1x320.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg11) S320x128.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg12) S1x128.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v2) S128x128.size cc0_transform_13 reads0_13 true false 2 stage0_13 sem0_13
    hrank0 hreads0_13 hinb0_13 nbuf0_13 (Memref.isWhole_whole _) hwx0_13 hstage0_13

abbrev win0 : Fin 14 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | ⟨_ + 14, h⟩ => absurd h (Nat.not_lt.2 (Nat.le_add_left _ _))
abbrev spec0 : Fin 14 → Pipeline.WinSpec sig grid0.rank := fun w => (win0 w).toWinSpec

class Facts : Prop extends Facts₀ where

variable [Facts]
-- ==== Proof.KernelFrame.lean ====
/-
  The kernel's program runs to its end and leaves its thirteen arguments as they were.

  The program flattens the images to rows, lays the four matrices of each pooled layer side by side (two concatenations along
  the columns), runs one grid of 64 points — point t takes rows 256·t … 256·t + 255 of the flattened images and the whole of every
  weight array, and writes rows 256·t … 256·t + 255 of a 16384 × 128 array — and keeps the first ten columns. The body at a point loads
  its seven input blocks whole, computes, and stores one whole output block: what the output block holds after the body is a function
  (`out0_7`) of the seven input blocks alone, and every input block is left as it was. So the grid's run is described by: the arrays as
  the grid finds them (`V`: the launch memory after the three host operations before the grid, none of which writes an argument), the
  input block of each window at each point read off those arrays (`iblk`), and `out0_7` of those blocks written back at each point.
  No host operation before or after the grid writes an argument, and the grid writes only its output array: the arguments are kept.
  Everything here is stated at any float instance; nothing computed by the body is opened.
-/
import proofs.«144946_g2000003217861111_pallasbulk_455_2_alg».proof.Proof.Gen.Kernel.Launch
import proofs.«144946_g2000003217861111_pallasbulk_455_2_alg».proof.Proof.Gen.Kernel.Skeleton
import proofs.«144946_g2000003217861111_pallasbulk_455_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around its grid -/

/-- The buffers' contents when the grid starts: the launch memory after the three host operations before it. -/
abbrev V0 (c : Dev nD) : Valuation τ sig (Elt F) := StableHlo.after (List.flatten [hostOps0]) (fun b => m (c, b))
/-- The same read at one buffer. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program is: the host operations before the grid, the grid, the host operation after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The operation after the grid touches only the grid's arrays and the buffers the grid leaves alone, -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- allocates nothing, -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- and writes none of the grid's arrays (it writes the result buffer, which is none of them). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.unary_writes, Finset.mem_singleton] <;> exact StableHlo.devRef_ne_of_ne (by decide)

/-- A buffer none of the three host operations before the grid writes (they write the flattened images and the two wide weight
    arrays) is found by the grid as launched. -/
theorem V_kept (c : Dev nD) (b : Ref sig .tc) (h0 : b ≠ main_v0) (h1 : b ≠ main_v1) (h2 : b ≠ main_v2) :
    V m c b = m ((c : Thread nD τ).loc b) :=
  StableHlo.after_of_forall_not_mem (b := Proc.devRef .tc b) _ _ (List.forall_iff_forall_mem.mp (by
    simp only [hostOps0, List.flatten_cons, List.flatten_nil, List.append_nil, List.cons_append,
      List.nil_append, List.Forall, StableHlo.nary_writes, StableHlo.reshape_writes, Finset.mem_singleton]
    exact ⟨StableHlo.devRef_ne_of_ne h0, StableHlo.devRef_ne_of_ne h1, StableHlo.devRef_ne_of_ne h2⟩))

/-- A buffer that is neither the result buffer nor an array of the grid ends as the grid found it. -/
theorem W_kept (dats : (p : Fin _) → (c : Dev nD) → Dat τ (Elt F) Unit ℕ (UR sig nD τ) ℕ (cfgs p) c) (c : Dev nD)
    (b : Ref sig .tc) (hb : b ≠ main_v4) (hw : ∀ w, Pipeline.arrRef spec0 w ≠ b) :
    Pipeline.afterTail₀ cfgs dats 0 (V0 m) [hostOps1] c b = V m c b := by
  unfold Pipeline.afterTail₀
  rw [StableHlo.after_of_forall_not_mem (b := Proc.devRef .tc b) _ _ (List.forall_iff_forall_mem.mp (by
      simp only [hostOps1, List.flatten_cons, List.flatten_nil, List.append_nil, List.cons_append,
        List.nil_append, List.Forall, StableHlo.unary_writes, Finset.mem_singleton]
      repeat' apply And.intro
      all_goals exact StableHlo.devRef_ne_of_ne hb)),
    Pipeline.withArrays_of_ne _ c (V0 m c) _ b hw]

/-! ## The windows' blocks -/

/-- Window `w`'s block at point `t`, read off its array as the grid finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not (a window that is not fetched
    at a point has not moved), for any description of the run whose arrays are `V`'s and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The arguments are kept -/

/-- From a run whose final state has every array of the grid at what the write-backs leave and every other buffer as the last host
    operation leaves it, the arguments end as launched: the four the grid stages whole (the three biases and the last weight) are
    inputs, whose arrays the grid does not write; the other nine are touched by no write at all. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c => ⟨
      ((h c).2 main_arg0 (Pipeline.mem_restRefs_of main_arg0 (by decide) (by decide))).trans ((W_kept m dats c main_arg0 (by decide) (by decide)).trans (V_kept m c main_arg0 (by decide) (by decide) (by decide))),
      ((h c).2 main_arg1 (Pipeline.mem_restRefs_of main_arg1 (by decide) (by decide))).trans ((W_kept m dats c main_arg1 (by decide) (by decide)).trans (V_kept m c main_arg1 (by decide) (by decide) (by decide))),
      ((h c).2 main_arg2 (Pipeline.mem_restRefs_of main_arg2 (by decide) (by decide))).trans ((W_kept m dats c main_arg2 (by decide) (by decide)).trans (V_kept m c main_arg2 (by decide) (by decide) (by decide))),
      ((h c).2 main_arg3 (Pipeline.mem_restRefs_of main_arg3 (by decide) (by decide))).trans ((W_kept m dats c main_arg3 (by decide) (by decide)).trans (V_kept m c main_arg3 (by decide) (by decide) (by decide))),
      ((h c).2 main_arg4 (Pipeline.mem_restRefs_of main_arg4 (by decide) (by decide))).trans ((W_kept m dats c main_arg4 (by decide) (by decide)).trans (V_kept m c main_arg4 (by decide) (by decide) (by decide))),
      ((h c).1 2).trans (((dats 0 c).arrAt_in 2 rfl _).trans ((hA c 2).trans (V_kept m c main_arg5 (by decide) (by decide) (by decide)))),
      ((h c).2 main_arg6 (Pipeline.mem_restRefs_of main_arg6 (by decide) (by decide))).trans ((W_kept m dats c main_arg6 (by decide) (by decide)).trans (V_kept m c main_arg6 (by decide) (by decide) (by decide))),
      ((h c).2 main_arg7 (Pipeline.mem_restRefs_of main_arg7 (by decide) (by decide))).trans ((W_kept m dats c main_arg7 (by decide) (by decide)).trans (V_kept m c main_arg7 (by decide) (by decide) (by decide))),
      ((h c).2 main_arg8 (Pipeline.mem_restRefs_of main_arg8 (by decide) (by decide))).trans ((W_kept m dats c main_arg8 (by decide) (by decide)).trans (V_kept m c main_arg8 (by decide) (by decide) (by decide))),
      ((h c).2 main_arg9 (Pipeline.mem_restRefs_of main_arg9 (by decide) (by decide))).trans ((W_kept m dats c main_arg9 (by decide) (by decide)).trans (V_kept m c main_arg9 (by decide) (by decide) (by decide))),
      ((h c).1 4).trans (((dats 0 c).arrAt_in 4 rfl _).trans ((hA c 4).trans (V_kept m c main_arg10 (by decide) (by decide) (by decide)))),
      ((h c).1 5).trans (((dats 0 c).arrAt_in 5 rfl _).trans ((hA c 5).trans (V_kept m c main_arg11 (by decide) (by decide) (by decide)))),
      ((h c).1 6).trans (((dats 0 c).arrAt_in 6 rfl _).trans ((hA c 6).trans (V_kept m c main_arg12 (by decide) (by decide) (by decide))))⟩) h

/-! ## The body's accesses: every load and the one store take a whole buffer -/

abbrev r0_0 : Rect S256x784 := Rect.unit (s := S256x784) ![0, 0] S256x784.size inb_S256x784_S256x784_0_0
abbrev r0_1 : Rect S784x5760 := Rect.unit (s := S784x5760) ![0, 0] S784x5760.size inb_S784x5760_S784x5760_0_0
abbrev r0_2 : Rect S1x1440 := Rect.unit (s := S1x1440) ![0, 0] S1x1440.size inb_S1x1440_S1x1440_0_0
abbrev r0_3 : Rect S1440x1280 := Rect.unit (s := S1440x1280) ![0, 0] S1440x1280.size inb_S1440x1280_S1440x1280_0_0
abbrev r0_4 : Rect S1x320 := Rect.unit (s := S1x320) ![0, 0] S1x320.size inb_S1x320_S1x320_0_0
abbrev r0_5 : Rect S320x128 := Rect.unit (s := S320x128) ![0, 0] S320x128.size inb_S320x128_S320x128_0_0
abbrev r0_6 : Rect S1x128 := Rect.unit (s := S1x128) ![0, 0] S1x128.size inb_S1x128_S1x128_0_0
abbrev r0_7 : Rect S256x128 := Rect.unit (s := S256x128) ![0, 0] S256x128.size inb_S256x128_S256x128_0_0

/-- What the output window's staging buffer holds after the body, from the seven input blocks: its one store, of the body's
    arithmetic (the two named payloads) of the loaded blocks. -/
def out0_7 (x0 : Vec F S256x784 .f32) (x1 : Vec F S784x5760 .bf16) (x2 : Vec F S1x1440 .f32) (x3 : Vec F S1440x1280 .bf16) (x4 : Vec F S1x320 .f32) (x5 : Vec F S320x128 .bf16) (x6 : Vec F S1x128 .f32) : Vec F S256x128 .f32 :=
  View.canon [⟨r0_7, k0_pay1 (k0_pay2 (View.ld x0 r0_0) (View.ld x1 r0_1) (View.ld x2 r0_2) (View.ld x3 r0_3) (View.ld x4 r0_4) (View.ld x5 r0_5) (View.ld x6 r0_6))⟩]

/-- The one store covers the buffer. -/
theorem cover0_7 (p0 : Vec F S256x128 .f32) (y : S256x128.Idx) :
    ∃ pc ∈ ([⟨r0_7, p0⟩] : List (View.Piece (Elt F) S256x128 .f32)), y ∈ pc.1.set :=
  View.cover_of_tiled [⟨r0_7, p0⟩] S256x128.size (by rfl) y

/-! ## The body on its buffers -/

set_option maxHeartbeats 1000000 in
/-- The body, given the seven input buffers at contents `x0 … x6` and the output buffer at anything, runs to its end, leaves the
    inputs as they were and the output at `out0_7 x0 … x6`. -/
theorem sound_kernel (c : Dev nD) (E : Set ℕ) (i : grid0.Coords) (arg1 : Memref sig .tc .vmem S256x784 .f32) (harg1 : arg1.IsWhole) (arg2 : Memref sig .tc .vmem S784x5760 .bf16) (harg2 : arg2.IsWhole) (arg3 : Memref sig .tc .vmem S1x1440 .f32) (harg3 : arg3.IsWhole) (arg4 : Memref sig .tc .vmem S1440x1280 .bf16) (harg4 : arg4.IsWhole) (arg5 : Memref sig .tc .vmem S1x320 .f32) (harg5 : arg5.IsWhole) (arg6 : Memref sig .tc .vmem S320x128 .bf16) (harg6 : arg6.IsWhole) (arg7 : Memref sig .tc .vmem S1x128 .f32) (harg7 : arg7.IsWhole) (arg8 : Memref sig .tc .vmem S256x128 .f32) (harg8 : arg8.IsWhole)
    (x0 : Vec F S256x784 .f32) (x1 : Vec F S784x5760 .bf16) (x2 : Vec F S1x1440 .f32) (x3 : Vec F S1440x1280 .bf16) (x4 : Vec F S1x320 .f32) (x5 : Vec F S320x128 .bf16) (x6 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out0_7 x0 x1 x2 x3 x4 x5 x6)) -∗ K ⟨⟩))
      ⊢ wp frame (wpE (defs₀ (F := F)) Variants.none c none) E (cc0__fused_body i arg1 harg1 arg2 harg2 arg3 harg3 arg4 harg4 arg5 harg5 arg6 harg6 arg7 harg7 arg8 harg8) K := by
  simp only [cc0__fused_body_eq_skeleton]; unfold cc0__fused_body_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  try dsimp only
  exact View.read_writes_eq_canon _ _ _ (cover0_7 _)

/-! ## The description of the grid's run -/

/-- The arrays as the grid finds them; after the body at point `t` each input buffer at its block and the output buffer at
    `out0_7` of the input blocks; nothing else of the core's is touched. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => out0_7 (iblk m c 0 t) (iblk m c 1 t) (iblk m c 2 t) (iblk m c 3 t) (iblk m c 4 t) (iblk m c 5 t) (iblk m c 6 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = out0_7 (iblk m c 0 t) (iblk m c 1 t) (iblk m c 2 t) (iblk m c 3 t) (iblk m c 4 t) (iblk m c 5 t) (iblk m c 6 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-! ## The body at a point of the grid -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- At any point the input buffers hold their blocks, so the body runs as `sound_kernel` says; the rest passes through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ (grid0.coords t) _ _ _ _ _ _ _ _ _ _ _ _ _ _ _ _ (iblk m c 0 t) (iblk m c 1 t) (iblk m c 2 t) (iblk m c 3 t) (iblk m c 4 t) (iblk m c 5 t) (iblk m c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- From any memory with zero counters every weakly fair execution of the program ends, with every array of the grid at what the
    write-backs leave (for the output array: `out0_7` of the input blocks, block by block) and every other buffer as the last host
    operation leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The program runs to its end and its arguments are kept. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  frame_of m ρ (dats m) (A_eq m) (run_main m ρ)

end Cert.Kernel.Frame

end
-- ==== Proof.KernelIdealFrame.lean ====
/-
  The kernel's program runs to its end and leaves its thirteen arguments as they were.

  The program flattens the images to rows, lays the four matrices of each pooled layer side by side (two concatenations along
  the columns), runs one grid of 64 points — point t takes rows 256·t … 256·t + 255 of the flattened images and the whole of every
  weight array, and writes rows 256·t … 256·t + 255 of a 16384 × 128 array — and keeps the first ten columns. The body at a point loads
  its seven input blocks whole, computes, and stores one whole output block: what the output block holds after the body is a function
  (`out0_7`) of the seven input blocks alone, and every input block is left as it was. So the grid's run is described by: the arrays as
  the grid finds them (`V`: the launch memory after the three host operations before the grid, none of which writes an argument), the
  input block of each window at each point read off those arrays (`iblk`), and `out0_7` of those blocks written back at each point.
  No host operation before or after the grid writes an argument, and the grid writes only its output array: the arguments are kept.
  Everything here is stated at any float instance; nothing computed by the body is opened.
-/
import proofs.«144946_g2000003217861111_pallasbulk_455_2_alg».proof.Proof.Gen.KernelIdeal.Launch
import proofs.«144946_g2000003217861111_pallasbulk_455_2_alg».proof.Proof.Gen.KernelIdeal.Skeleton
import proofs.«144946_g2000003217861111_pallasbulk_455_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around its grid -/

/-- The buffers' contents when the grid starts: the launch memory after the three host operations before it. -/
abbrev V0 (c : Dev nD) : Valuation τ sig (Elt F) := StableHlo.after (List.flatten [hostOps0]) (fun b => m (c, b))
/-- The same read at one buffer. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program is: the host operations before the grid, the grid, the host operation after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The operation after the grid touches only the grid's arrays and the buffers the grid leaves alone, -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- allocates nothing, -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- and writes none of the grid's arrays (it writes the result buffer, which is none of them). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.unary_writes, Finset.mem_singleton] <;> exact StableHlo.devRef_ne_of_ne (by decide)

/-- A buffer none of the three host operations before the grid writes (they write the flattened images and the two wide weight
    arrays) is found by the grid as launched. -/
theorem V_kept (c : Dev nD) (b : Ref sig .tc) (h0 : b ≠ main_v0) (h1 : b ≠ main_v1) (h2 : b ≠ main_v2) :
    V m c b = m ((c : Thread nD τ).loc b) :=
  StableHlo.after_of_forall_not_mem (b := Proc.devRef .tc b) _ _ (List.forall_iff_forall_mem.mp (by
    simp only [hostOps0, List.flatten_cons, List.flatten_nil, List.append_nil, List.cons_append,
      List.nil_append, List.Forall, StableHlo.nary_writes, StableHlo.reshape_writes, Finset.mem_singleton]
    exact ⟨StableHlo.devRef_ne_of_ne h0, StableHlo.devRef_ne_of_ne h1, StableHlo.devRef_ne_of_ne h2⟩))

/-- A buffer that is neither the result buffer nor an array of the grid ends as the grid found it. -/
theorem W_kept (dats : (p : Fin _) → (c : Dev nD) → Dat τ (Elt F) Unit ℕ (UR sig nD τ) ℕ (cfgs p) c) (c : Dev nD)
    (b : Ref sig .tc) (hb : b ≠ main_v4) (hw : ∀ w, Pipeline.arrRef spec0 w ≠ b) :
    Pipeline.afterTail₀ cfgs dats 0 (V0 m) [hostOps1] c b = V m c b := by
  unfold Pipeline.afterTail₀
  rw [StableHlo.after_of_forall_not_mem (b := Proc.devRef .tc b) _ _ (List.forall_iff_forall_mem.mp (by
      simp only [hostOps1, List.flatten_cons, List.flatten_nil, List.append_nil, List.cons_append,
        List.nil_append, List.Forall, StableHlo.unary_writes, Finset.mem_singleton]
      repeat' apply And.intro
      all_goals exact StableHlo.devRef_ne_of_ne hb)),
    Pipeline.withArrays_of_ne _ c (V0 m c) _ b hw]

/-! ## The windows' blocks -/

/-- Window `w`'s block at point `t`, read off its array as the grid finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not (a window that is not fetched
    at a point has not moved), for any description of the run whose arrays are `V`'s and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The arguments are kept -/

/-- From a run whose final state has every array of the grid at what the write-backs leave and every other buffer as the last host
    operation leaves it, the arguments end as launched: the four the grid stages whole (the three biases and the last weight) are
    inputs, whose arrays the grid does not write; the other nine are touched by no write at all. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c => ⟨
      ((h c).2 main_arg0 (Pipeline.mem_restRefs_of main_arg0 (by decide) (by decide))).trans ((W_kept m dats c main_arg0 (by decide) (by decide)).trans (V_kept m c main_arg0 (by decide) (by decide) (by decide))),
      ((h c).2 main_arg1 (Pipeline.mem_restRefs_of main_arg1 (by decide) (by decide))).trans ((W_kept m dats c main_arg1 (by decide) (by decide)).trans (V_kept m c main_arg1 (by decide) (by decide) (by decide))),
      ((h c).2 main_arg2 (Pipeline.mem_restRefs_of main_arg2 (by decide) (by decide))).trans ((W_kept m dats c main_arg2 (by decide) (by decide)).trans (V_kept m c main_arg2 (by decide) (by decide) (by decide))),
      ((h c).2 main_arg3 (Pipeline.mem_restRefs_of main_arg3 (by decide) (by decide))).trans ((W_kept m dats c main_arg3 (by decide) (by decide)).trans (V_kept m c main_arg3 (by decide) (by decide) (by decide))),
      ((h c).2 main_arg4 (Pipeline.mem_restRefs_of main_arg4 (by decide) (by decide))).trans ((W_kept m dats c main_arg4 (by decide) (by decide)).trans (V_kept m c main_arg4 (by decide) (by decide) (by decide))),
      ((h c).1 2).trans (((dats 0 c).arrAt_in 2 rfl _).trans ((hA c 2).trans (V_kept m c main_arg5 (by decide) (by decide) (by decide)))),
      ((h c).2 main_arg6 (Pipeline.mem_restRefs_of main_arg6 (by decide) (by decide))).trans ((W_kept m dats c main_arg6 (by decide) (by decide)).trans (V_kept m c main_arg6 (by decide) (by decide) (by decide))),
      ((h c).2 main_arg7 (Pipeline.mem_restRefs_of main_arg7 (by decide) (by decide))).trans ((W_kept m dats c main_arg7 (by decide) (by decide)).trans (V_kept m c main_arg7 (by decide) (by decide) (by decide))),
      ((h c).2 main_arg8 (Pipeline.mem_restRefs_of main_arg8 (by decide) (by decide))).trans ((W_kept m dats c main_arg8 (by decide) (by decide)).trans (V_kept m c main_arg8 (by decide) (by decide) (by decide))),
      ((h c).2 main_arg9 (Pipeline.mem_restRefs_of main_arg9 (by decide) (by decide))).trans ((W_kept m dats c main_arg9 (by decide) (by decide)).trans (V_kept m c main_arg9 (by decide) (by decide) (by decide))),
      ((h c).1 4).trans (((dats 0 c).arrAt_in 4 rfl _).trans ((hA c 4).trans (V_kept m c main_arg10 (by decide) (by decide) (by decide)))),
      ((h c).1 5).trans (((dats 0 c).arrAt_in 5 rfl _).trans ((hA c 5).trans (V_kept m c main_arg11 (by decide) (by decide) (by decide)))),
      ((h c).1 6).trans (((dats 0 c).arrAt_in 6 rfl _).trans ((hA c 6).trans (V_kept m c main_arg12 (by decide) (by decide) (by decide))))⟩) h

/-! ## The body's accesses: every load and the one store take a whole buffer -/

abbrev r0_0 : Rect S256x784 := Rect.unit (s := S256x784) ![0, 0] S256x784.size inb_S256x784_S256x784_0_0
abbrev r0_1 : Rect S784x5760 := Rect.unit (s := S784x5760) ![0, 0] S784x5760.size inb_S784x5760_S784x5760_0_0
abbrev r0_2 : Rect S1x1440 := Rect.unit (s := S1x1440) ![0, 0] S1x1440.size inb_S1x1440_S1x1440_0_0
abbrev r0_3 : Rect S1440x1280 := Rect.unit (s := S1440x1280) ![0, 0] S1440x1280.size inb_S1440x1280_S1440x1280_0_0
abbrev r0_4 : Rect S1x320 := Rect.unit (s := S1x320) ![0, 0] S1x320.size inb_S1x320_S1x320_0_0
abbrev r0_5 : Rect S320x128 := Rect.unit (s := S320x128) ![0, 0] S320x128.size inb_S320x128_S320x128_0_0
abbrev r0_6 : Rect S1x128 := Rect.unit (s := S1x128) ![0, 0] S1x128.size inb_S1x128_S1x128_0_0
abbrev r0_7 : Rect S256x128 := Rect.unit (s := S256x128) ![0, 0] S256x128.size inb_S256x128_S256x128_0_0

/-- What the output window's staging buffer holds after the body, from the seven input blocks: its one store, of the body's
    arithmetic (the two named payloads) of the loaded blocks. -/
def out0_7 (x0 : Vec F S256x784 .f32) (x1 : Vec F S784x5760 .bf16) (x2 : Vec F S1x1440 .f32) (x3 : Vec F S1440x1280 .bf16) (x4 : Vec F S1x320 .f32) (x5 : Vec F S320x128 .bf16) (x6 : Vec F S1x128 .f32) : Vec F S256x128 .f32 :=
  View.canon [⟨r0_7, k0_pay1 (k0_pay2 (View.ld x0 r0_0) (View.ld x1 r0_1) (View.ld x2 r0_2) (View.ld x3 r0_3) (View.ld x4 r0_4) (View.ld x5 r0_5) (View.ld x6 r0_6))⟩]

/-- The one store covers the buffer. -/
theorem cover0_7 (p0 : Vec F S256x128 .f32) (y : S256x128.Idx) :
    ∃ pc ∈ ([⟨r0_7, p0⟩] : List (View.Piece (Elt F) S256x128 .f32)), y ∈ pc.1.set :=
  View.cover_of_tiled [⟨r0_7, p0⟩] S256x128.size (by rfl) y

/-! ## The body on its buffers -/

set_option maxHeartbeats 1000000 in
/-- The body, given the seven input buffers at contents `x0 … x6` and the output buffer at anything, runs to its end, leaves the
    inputs as they were and the output at `out0_7 x0 … x6`. -/
theorem sound_kernel (c : Dev nD) (E : Set ℕ) (i : grid0.Coords) (arg1 : Memref sig .tc .vmem S256x784 .f32) (harg1 : arg1.IsWhole) (arg2 : Memref sig .tc .vmem S784x5760 .bf16) (harg2 : arg2.IsWhole) (arg3 : Memref sig .tc .vmem S1x1440 .f32) (harg3 : arg3.IsWhole) (arg4 : Memref sig .tc .vmem S1440x1280 .bf16) (harg4 : arg4.IsWhole) (arg5 : Memref sig .tc .vmem S1x320 .f32) (harg5 : arg5.IsWhole) (arg6 : Memref sig .tc .vmem S320x128 .bf16) (harg6 : arg6.IsWhole) (arg7 : Memref sig .tc .vmem S1x128 .f32) (harg7 : arg7.IsWhole) (arg8 : Memref sig .tc .vmem S256x128 .f32) (harg8 : arg8.IsWhole)
    (x0 : Vec F S256x784 .f32) (x1 : Vec F S784x5760 .bf16) (x2 : Vec F S1x1440 .f32) (x3 : Vec F S1440x1280 .bf16) (x4 : Vec F S1x320 .f32) (x5 : Vec F S320x128 .bf16) (x6 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out0_7 x0 x1 x2 x3 x4 x5 x6)) -∗ K ⟨⟩))
      ⊢ wp frame (wpE (defs₀ (F := F)) Variants.none c none) E (cc0__fused_body i arg1 harg1 arg2 harg2 arg3 harg3 arg4 harg4 arg5 harg5 arg6 harg6 arg7 harg7 arg8 harg8) K := by
  simp only [cc0__fused_body_eq_skeleton]; unfold cc0__fused_body_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  try dsimp only
  exact View.read_writes_eq_canon _ _ _ (cover0_7 _)

/-! ## The description of the grid's run -/

/-- The arrays as the grid finds them; after the body at point `t` each input buffer at its block and the output buffer at
    `out0_7` of the input blocks; nothing else of the core's is touched. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => out0_7 (iblk m c 0 t) (iblk m c 1 t) (iblk m c 2 t) (iblk m c 3 t) (iblk m c 4 t) (iblk m c 5 t) (iblk m c 6 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = out0_7 (iblk m c 0 t) (iblk m c 1 t) (iblk m c 2 t) (iblk m c 3 t) (iblk m c 4 t) (iblk m c 5 t) (iblk m c 6 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-! ## The body at a point of the grid -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- At any point the input buffers hold their blocks, so the body runs as `sound_kernel` says; the rest passes through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ (grid0.coords t) _ _ _ _ _ _ _ _ _ _ _ _ _ _ _ _ (iblk m c 0 t) (iblk m c 1 t) (iblk m c 2 t) (iblk m c 3 t) (iblk m c 4 t) (iblk m c 5 t) (iblk m c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- From any memory with zero counters every weakly fair execution of the program ends, with every array of the grid at what the
    write-backs leave (for the output array: `out0_7` of the input blocks, block by block) and every other buffer as the last host
    operation leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The program runs to its end and its arguments are kept. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  frame_of m ρ (dats m) (A_eq m) (run_main m ρ)

end Cert.KernelIdeal.Frame

end
-- ==== Proof.LibPlainDot.lean ====
/-
  General facts about the shapes a row-wise dense layer meets, on the extended reals: a rows-by-columns matrix product
  read at one entry as a sum over the shared axis; a column broadcast across the columns; a bias vector laid along the
  rows.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.LibPlainDot

open Idealize.ShloMosaic Idealize.ShloMosaic.ValueIdx

/-- The contraction sum of an `M×K` by `K×N` product at entry `(p, j)` is `∑ₖ l(p,k)·r(k,j)`: the one contracted axis
    is re-indexed by its coordinate; the left operand is read at the entry's row and the right at its column (the four
    hypotheses say so of the dimension numbers, coordinate by coordinate). -/
theorem sum_plain {M K N : Nat} (D : DotDims ⟨2, ![M, K]⟩ ⟨2, ![K, N]⟩ ⟨2, ![M, N]⟩)
    (hr : D.contr.rank = 1) (hs : D.contr.size ⟨0, by omega⟩ = K)
    (hl0 : ∀ (i : (⟨2, ![M, N]⟩ : Shape).Idx) (q : D.contr.Idx), (D.lhsIdx i q 0).val = (i 0).val)
    (hl1 : ∀ (i : (⟨2, ![M, N]⟩ : Shape).Idx) (q : D.contr.Idx), (D.lhsIdx i q 1).val = (q ⟨0, by omega⟩).val)
    (hr0 : ∀ (i : (⟨2, ![M, N]⟩ : Shape).Idx) (q : D.contr.Idx), (D.rhsIdx i q 0).val = (q ⟨0, by omega⟩).val)
    (hr1 : ∀ (i : (⟨2, ![M, N]⟩ : Shape).Idx) (q : D.contr.Idx), (D.rhsIdx i q 1).val = (i 1).val)
    (l : (⟨2, ![M, K]⟩ : Shape).Idx → EReal) (r : (⟨2, ![K, N]⟩ : Shape).Idx → EReal) (p : Fin M) (j : Fin N) :
    ∑ q : D.contr.Idx, l (D.lhsIdx (ix2 p j) q) * r (D.rhsIdx (ix2 p j) q) = ∑ k : Fin K, l (ix2 p k) * r (ix2 k j) := by
  rw [← Equiv.sum_comp (contrEquiv1 D K hr hs).symm]
  refine Finset.sum_congr rfl fun k _ => ?_
  have hk := contrEquiv1_symm_val D K hr hs k
  have el : D.lhsIdx (ix2 p j) ((contrEquiv1 D K hr hs).symm k) = ix2 p k := funext fun a => Fin.ext (by
    match a with
    | ⟨0, _⟩ => exact hl0 _ _
    | ⟨1, _⟩ => exact (hl1 _ _).trans hk)
  have er : D.rhsIdx (ix2 p j) ((contrEquiv1 D K hr hs).symm k) = ix2 k j := funext fun a => Fin.ext (by
    match a with
    | ⟨0, _⟩ => exact (hr0 _ _).trans hk
    | ⟨1, _⟩ => exact hr1 _ _)
  rw [el, er]

/-- A matrix product accumulated into zeros, read at entry `(p, j)`. -/
theorem matmul_plain_apply {M K N : Nat} (D : DotDims ⟨2, ![M, K]⟩ ⟨2, ![K, N]⟩ ⟨2, ![M, N]⟩)
    (hr : D.contr.rank = 1) (hs : D.contr.size ⟨0, by omega⟩ = K)
    (hl0 : ∀ (i : (⟨2, ![M, N]⟩ : Shape).Idx) (q : D.contr.Idx), (D.lhsIdx i q 0).val = (i 0).val)
    (hl1 : ∀ (i : (⟨2, ![M, N]⟩ : Shape).Idx) (q : D.contr.Idx), (D.lhsIdx i q 1).val = (q ⟨0, by omega⟩).val)
    (hr0 : ∀ (i : (⟨2, ![M, N]⟩ : Shape).Idx) (q : D.contr.Idx), (D.rhsIdx i q 0).val = (q ⟨0, by omega⟩).val)
    (hr1 : ∀ (i : (⟨2, ![M, N]⟩ : Shape).Idx) (q : D.contr.Idx), (D.rhsIdx i q 1).val = (i 1).val)
    (prec : Option ContractPrecision)
    (l : FVec Ideal ⟨2, ![M, K]⟩ .f32) (r : FVec Ideal ⟨2, ![K, N]⟩ .f32) (p : Fin M) (j : Fin N) :
    FloatOps.matmul D prec l r (constant (F := Ideal) ⟨2, ![M, N]⟩ .f32 0x00000000#32) (ix2 p j)
      = ∑ k : Fin K, l (ix2 p k) * r (ix2 k j) := by
  rw [Ideal.matmul_constant_zero_apply]
  exact sum_plain D hr hs hl0 hl1 hr0 hr1 l r p j

variable {α : Type}

/-- An `[a, 1]` column broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A bias vector `[b]` viewed as one row `[1, b]` and laid along `a` rows reads, at `(p, c)`, its entry `c`. -/
theorem bias_row_apply {a b : ℕ} (x : (⟨1, ![b]⟩ : Shape).Idx → α)
    (h : (⟨1, ![b]⟩ : Shape).ShapeCasts ⟨2, ![1, b]⟩) (h' : (⟨2, ![1, b]⟩ : Shape).Broadcasts ⟨2, ![a, b]⟩)
    (p : Fin a) (c : Fin b) :
    broadcastTo ⟨2, ![a, b]⟩ (shapeCast ⟨2, ![1, b]⟩ x h) h' (ix2 p c) = x (ix1 c) := by
  rw [broadcastTo_1b_ab_apply, shapeCast_a_1a_apply]

/-- The word of all zero bits is the real number zero. -/
theorem scalar_zero : (Scalar.ofBits (F := Ideal) .f32 0x00000000#32 : Ideal .f32) = (0 : EReal) :=
  Ideal.ofBits_zero_f32

end Cert.LibPlainDot

end
-- ==== Proof.LibRowNet.lean ====
/-
  One row of a small convolutional classifier, on the extended reals: a row times a matrix; a pooled dense layer (the
  largest of four such products, plus a bias, clipped below at a floor); the log-softmax of a row. And how the vector
  operations that compute these on a block of rows read at one entry of the block: every one of them acts row by row.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import proofs.«144946_g2000003217861111_pallasbulk_455_2_alg».proof.Proof.LibPlainDot

noncomputable section

open scoped BigOperators

namespace Cert.LibRowNet

open Idealize.ShloMosaic Idealize.ShloMosaic.ValueIdx

/-- The shape of an `a × b` matrix and of a length-`a` vector. -/
abbrev M2 (a b : ℕ) : Shape := ⟨2, ![a, b]⟩
abbrev M1 (a : ℕ) : Shape := ⟨1, ![a]⟩

/-! ## One row -/

/-- A row times a matrix: entry `j` is `∑ₖ x k · w k j`. -/
def dotRow {K N : ℕ} (x : Fin K → EReal) (w : Fin K → Fin N → EReal) (j : Fin N) : EReal := ∑ k : Fin K, x k * w k j

/-- A pooled dense layer on one row: the largest of the row's products with four matrices, plus a bias, clipped below at `z`. -/
def poolRow {K N : ℕ} (z : EReal) (x : Fin K → EReal) (w0 w1 w2 w3 : Fin K → Fin N → EReal) (b : Fin N → EReal) (j : Fin N) : EReal :=
  max (max (max (max (dotRow x w0 j) (dotRow x w1 j)) (dotRow x w2 j)) (dotRow x w3 j) + b j) z

/-- The log-softmax of a row, the running maximum started from `ninf`: `(l j - mx) - log ∑ₖ exp (l k - mx)`. -/
def headRow {N : ℕ} (ninf : EReal) (l : Fin N → EReal) (j : Fin N) : EReal :=
  (l j - (Finset.univ : Finset (Fin N)).fold max ninf l)
    - Ideal.log (∑ k : Fin N, Ideal.exp (l k - (Finset.univ : Finset (Fin N)).fold max ninf l))

/-! ## The plain matrix product -/

/-- The dimension numbers of an `M×K` by `K×N` product, by their fields. -/
structure IsPlain {sl sr so : Shape} (D : DotDims sl sr so) : Prop where
  lc : D.lhsContracting.map Fin.val = [1]
  rc : D.rhsContracting.map Fin.val = [0]
  ln : D.lhsNonContracting.map Fin.val = [0]
  rn : D.rhsNonContracting.map Fin.val = [1]
  lb : D.lhsBatch = []
  rb : D.rhsBatch = []

/-- A list of bounded naturals whose values are the one number `v` is the one-element list of `v`. -/
theorem eq_single_of_map_val {n : ℕ} {l : List (Fin n)} {v : ℕ} (h : l.map Fin.val = [v]) :
    ∃ hv : v < n, l = [⟨v, hv⟩] := by
  cases l with
  | nil => simp at h
  | cons x t =>
    cases t with
    | nil =>
      simp only [List.map_cons, List.map_nil, List.cons.injEq, and_true] at h
      subst h
      exact ⟨x.isLt, rfl⟩
    | cons y t' => simp at h

/-- With no batch axis and one free left axis `a`, the left index reads the result's first coordinate on `a`. -/
theorem lhsIdx_val_free {sl sr so : Shape} (d : DotDims sl sr so) (hb : d.lhsBatch = []) {a : Fin sl.rank}
    (hn : d.lhsNonContracting = [a]) (h0 : 0 < so.rank) (j : so.Idx) (k : d.contr.Idx) :
    (d.lhsIdx j k a).val = (j ⟨0, h0⟩).val := by
  unfold DotDims.lhsIdx
  rw [dif_neg (by rw [hb]; exact List.not_mem_nil), dif_pos (by rw [hn]; exact List.mem_singleton.mpr rfl)]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hb, hn])

/-- With no batch axis, one free left axis and one free right axis `a`, the right index reads the result's second
    coordinate on `a`. -/
theorem rhsIdx_val_free {sl sr so : Shape} (d : DotDims sl sr so) (hb : d.lhsBatch = []) (hb' : d.rhsBatch = [])
    {c : Fin sl.rank} (hn : d.lhsNonContracting = [c]) {a : Fin sr.rank}
    (hn' : d.rhsNonContracting = [a]) (h1 : 1 < so.rank) (j : so.Idx) (k : d.contr.Idx) :
    (d.rhsIdx j k a).val = (j ⟨1, h1⟩).val := by
  unfold DotDims.rhsIdx
  rw [dif_neg (by rw [hb']; exact List.not_mem_nil), dif_pos (by rw [hn']; exact List.mem_singleton.mpr rfl)]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hb, hn, hn'])

/-- A plain product accumulated into zeros, at entry `(p, j)`: the row `p` of the left operand times the right operand. -/
theorem matmul_zero_apply {M K N : ℕ} {φ₁ φ₂ : FTy} (D : DotDims (M2 M K) (M2 K N) (M2 M N)) (hD : IsPlain D)
    (prec : Option ContractPrecision) (l : FVec Ideal (M2 M K) φ₁) (r : FVec Ideal (M2 K N) φ₂) (p : Fin M) (j : Fin N) :
    matmul D prec l r (constant (F := Ideal) (M2 M N) .f32 0x00000000#32) (ix2 p j)
      = dotRow (fun k => l (ix2 p k)) (fun k j => r (ix2 k j)) j := by
  obtain ⟨_, hlc⟩ := eq_single_of_map_val hD.lc
  obtain ⟨_, hrc⟩ := eq_single_of_map_val hD.rc
  obtain ⟨_, hln⟩ := eq_single_of_map_val hD.ln
  obtain ⟨_, hrn⟩ := eq_single_of_map_val hD.rn
  have hr : D.contr.rank = 1 := by rw [D.rank_contr, hlc]; rfl
  have hs : D.contr.size ⟨0, by omega⟩ = K := by
    rw [D.size_contr 0 (by rw [hlc]; exact Nat.one_pos)]
    simp only [hlc, List.getElem_cons_zero]
    rfl
  show FloatOps.matmul D prec l r (constant (F := Ideal) (M2 M N) .f32 0x00000000#32) (ix2 p j) = _
  rw [Ideal.matmul_constant_zero_apply]
  exact Cert.LibPlainDot.sum_plain D hr hs
    (fun i q => lhsIdx_val_free D hD.lb hln Nat.two_pos i q)
    (fun i q => D.lhsIdx_val_of_single hlc i q)
    (fun i q => D.rhsIdx_val_of_single hrc i q)
    (fun i q => rhsIdx_val_free D hD.lb hD.rb hln hrn Nat.one_lt_two i q)
    l r p j

/-! ## The pooled layer, in its two spellings -/

/-- A column block of a plain product into zeros, at `(p, j)`: row `p` times the matrix whose columns that block holds. -/
theorem slice_matmul_apply {a K N N4 : ℕ} {φ₁ φ₂ : FTy} (D : DotDims (M2 a K) (M2 K N4) (M2 a N4)) (hD : IsPlain D)
    (prec : Option ContractPrecision) (o : ℕ) (x : FVec Ideal (M2 a K) φ₁) (w : FVec Ideal (M2 K N4) φ₂)
    (h : (M2 a N4).Slices ![0, o] (M2 a N)) (wq : Fin K → Fin N → EReal)
    (hw : ∀ (k : Fin K) (j : Fin N) (c : Fin N4), c.val = o + j.val → w (ix2 k c) = wq k j) (p : Fin a) (j : Fin N) :
    extractStridedSlice (M2 a N) ![0, o] (matmul D prec x w (constant (F := Ideal) (M2 a N4) .f32 0x00000000#32)) h (ix2 p j)
      = dotRow (fun k => x (ix2 p k)) wq j := by
  rw [slice2_axis1_eq, matmul_zero_apply D hD]
  unfold dotRow
  exact Finset.sum_congr rfl fun k _ => congrArg (fun t => x (ix2 p k) * t) (hw k j _ rfl)

/-- ONE product with the four matrices laid side by side (`w`: columns `o_q + j` are matrix `q`'s column `j`), its four
    column blocks cut out and the largest taken pairwise, then the bias row and the floor: at `(p, j)` the pooled layer of row `p`. -/
theorem pool_cat_apply {a K N N4 : ℕ} {φ₁ φ₂ : FTy} (D : DotDims (M2 a K) (M2 K N4) (M2 a N4)) (hD : IsPlain D)
    (prec : Option ContractPrecision) (o0 o1 o2 o3 : ℕ)
    (x : FVec Ideal (M2 a K) φ₁) (w : FVec Ideal (M2 K N4) φ₂) (b : FVec Ideal (M2 1 N) .f32) (z : Ideal .f32)
    (h0 : (M2 a N4).Slices ![0, o0] (M2 a N)) (h1 : (M2 a N4).Slices ![0, o1] (M2 a N))
    (h2 : (M2 a N4).Slices ![0, o2] (M2 a N)) (h3 : (M2 a N4).Slices ![0, o3] (M2 a N))
    (hb : (M2 1 N).Broadcasts (M2 a N))
    (w0 w1 w2 w3 : Fin K → Fin N → EReal)
    (hw0 : ∀ (k : Fin K) (j : Fin N) (c : Fin N4), c.val = o0 + j.val → w (ix2 k c) = w0 k j)
    (hw1 : ∀ (k : Fin K) (j : Fin N) (c : Fin N4), c.val = o1 + j.val → w (ix2 k c) = w1 k j)
    (hw2 : ∀ (k : Fin K) (j : Fin N) (c : Fin N4), c.val = o2 + j.val → w (ix2 k c) = w2 k j)
    (hw3 : ∀ (k : Fin K) (j : Fin N) (c : Fin N4), c.val = o3 + j.val → w (ix2 k c) = w3 k j)
    (p : Fin a) (j : Fin N) :
    maximumf (addf (maximumf
        (maximumf (extractStridedSlice (M2 a N) ![0, o0] (matmul D prec x w (constant (F := Ideal) (M2 a N4) .f32 0x00000000#32)) h0)
                  (extractStridedSlice (M2 a N) ![0, o1] (matmul D prec x w (constant (F := Ideal) (M2 a N4) .f32 0x00000000#32)) h1))
        (maximumf (extractStridedSlice (M2 a N) ![0, o2] (matmul D prec x w (constant (F := Ideal) (M2 a N4) .f32 0x00000000#32)) h2)
                  (extractStridedSlice (M2 a N) ![0, o3] (matmul D prec x w (constant (F := Ideal) (M2 a N4) .f32 0x00000000#32)) h3)))
        (broadcastTo (M2 a N) b hb)) (broadcast (M2 a N) z) (ix2 p j)
      = poolRow z (fun k => x (ix2 p k)) w0 w1 w2 w3 (fun j => b (ix2 0 j)) j := by
  simp only [maximumf_apply, addf_apply, broadcast_apply]
  rw [slice_matmul_apply D hD prec o0 x w h0 w0 hw0, slice_matmul_apply D hD prec o1 x w h1 w1 hw1,
    slice_matmul_apply D hD prec o2 x w h2 w2 hw2, slice_matmul_apply D hD prec o3 x w h3 w3 hw3,
    broadcastTo_1b_ab_apply, ← max_assoc]
  rfl

/-- FOUR products, the largest taken one after the other, then the bias row and the floor: the same pooled layer of row `p`. -/
theorem pool_sep_apply {a K N : ℕ} {φ₁ φ₂ : FTy} (D : DotDims (M2 a K) (M2 K N) (M2 a N)) (hD : IsPlain D)
    (prec : Option ContractPrecision)
    (x : FVec Ideal (M2 a K) φ₁) (w0 w1 w2 w3 : FVec Ideal (M2 K N) φ₂) (b : FVec Ideal (M2 1 N) .f32) (z : Ideal .f32)
    (hb : (M2 1 N).Broadcasts (M2 a N)) (p : Fin a) (j : Fin N) :
    maximumf (addf (maximumf (maximumf (maximumf
          (matmul D prec x w0 (constant (F := Ideal) (M2 a N) .f32 0x00000000#32))
          (matmul D prec x w1 (constant (F := Ideal) (M2 a N) .f32 0x00000000#32)))
          (matmul D prec x w2 (constant (F := Ideal) (M2 a N) .f32 0x00000000#32)))
          (matmul D prec x w3 (constant (F := Ideal) (M2 a N) .f32 0x00000000#32)))
        (broadcastTo (M2 a N) b hb)) (broadcast (M2 a N) z) (ix2 p j)
      = poolRow z (fun k => x (ix2 p k)) (fun k j => w0 (ix2 k j)) (fun k j => w1 (ix2 k j)) (fun k j => w2 (ix2 k j))
          (fun k j => w3 (ix2 k j)) (fun j => b (ix2 0 j)) j := by
  simp only [maximumf_apply, addf_apply, broadcast_apply]
  rw [matmul_zero_apply D hD, matmul_zero_apply D hD, matmul_zero_apply D hD, matmul_zero_apply D hD, broadcastTo_1b_ab_apply]
  rfl

/-! ## The last layer and the log-softmax -/

/-- A plain product plus a bias row, at `(p, j)`. -/
theorem logits_apply {a K N : ℕ} {φ₁ φ₂ : FTy} (D : DotDims (M2 a K) (M2 K N) (M2 a N)) (hD : IsPlain D)
    (prec : Option ContractPrecision) (x : FVec Ideal (M2 a K) φ₁) (w : FVec Ideal (M2 K N) φ₂) (b : FVec Ideal (M2 1 N) .f32)
    (hb : (M2 1 N).Broadcasts (M2 a N)) (p : Fin a) (j : Fin N) :
    addf (matmul D prec x w (constant (F := Ideal) (M2 a N) .f32 0x00000000#32)) (broadcastTo (M2 a N) b hb) (ix2 p j)
      = dotRow (fun k => x (ix2 p k)) (fun k j => w (ix2 k j)) j + b (ix2 0 j) := by
  rw [addf_apply, matmul_zero_apply D hD, broadcastTo_1b_ab_apply]

/-- A length-`a` vector recast as an `a × 1` column reads, at `(p, 0)`, its entry `p`. -/
theorem shapeCast_a_a1_apply {α : Type} {a : ℕ} (u : (M1 a).Idx → α) (hc : (M1 a).ShapeCasts (M2 a 1)) (p : Fin a) :
    shapeCast (M2 a 1) u hc (ix2 p (0 : Fin 1)) = u (ix1 p) :=
  shapeCast_apply u hc _ _ (by
    rw [Shape.rowMajor_val_two, Shape.rowMajor_val_one]
    show p.val = p.val * 1 + 0
    omega)

/-- That column laid back across `N` columns reads, at `(p, j)`, the vector's entry `p`. -/
theorem column_across_apply {α : Type} {a N : ℕ} (u : (M1 a).Idx → α) (hc : (M1 a).ShapeCasts (M2 a 1))
    (hb : (M2 a 1).Broadcasts (M2 a N)) (p : Fin a) (j : Fin N) :
    broadcastTo (M2 a N) (shapeCast (M2 a 1) u hc) hb (ix2 p j) = u (ix1 p) := by
  rw [Cert.LibPlainDot.broadcastTo_a1_ab_apply, shapeCast_a_a1_apply]

/-- The index of a matrix that lies over entry `p` of the vector of its rows' reductions, at column `k`, is `(p, k)`. -/
theorem lift_row {a N : ℕ} (hr : (M2 a N).Reduces [1] (M1 a)) (p : Fin a) (k : Fin N) :
    hr.lift (ix1 p) k = ix2 p k := by
  funext c
  apply Fin.ext
  match c with
  | ⟨0, _⟩ => rfl
  | ⟨1, _⟩ => rfl

/-- The largest entry of each row, the running maximum started from the word `ninf`, at row `p`. -/
theorem rowmax_apply {a N : ℕ} (v : FVec Ideal (M2 a N) .f32) (ninf : BitVec 32)
    (hr : (M2 a N).Reduces [1] (M1 a)) (hφ : FKind.Formats .f32) (hmax : ninf = FKind.maximumf.neutral .f32 hφ) (p : Fin a) :
    multiReduction .maximumf [1] (M1 a) v ninf hr hφ hmax (ix1 p)
      = (Finset.univ : Finset (Fin N)).fold max (FloatOps.ofBits (F := Ideal) .f32 ninf) (fun k => v (ix2 p k)) := by
  rw [Ideal.multiReduction_maximumf_single]
  have e : (v ∘ hr.lift (ix1 p)) = fun k : Fin N => v (ix2 p k) := funext fun k => congrArg v (lift_row hr p k)
  rw [e]
  rfl

/-- The sum of each row (from the zero word), at row `p`. -/
theorem rowsum_apply {a N : ℕ} (v : FVec Ideal (M2 a N) .f32)
    (hr : (M2 a N).Reduces [1] (M1 a)) (hφ : FKind.Formats .f32) (hadd : (0x00000000#32 : BitVec 32) = FKind.add.neutral .f32 hφ)
    (p : Fin a) :
    multiReduction .add [1] (M1 a) v 0x00000000#32 hr hφ hadd (ix1 p) = ∑ k : Fin N, v (ix2 p k) := by
  rw [Ideal.multiReduction_add_single]
  exact Finset.sum_congr rfl fun k _ => congrArg v (lift_row hr p k)

/-- The log-softmax along the columns as the vector unit spells it — the row maximum (a reduction along axis 1 from the
    word `ninf`), kept as a column and laid back across the columns, subtracted; the exponentials summed along axis 1 (from the
    zero word), the logarithm of that column laid back and subtracted — reads, at `(p, j)`, the log-softmax of row `p`. -/
theorem head_apply {a N : ℕ} (v : FVec Ideal (M2 a N) .f32) (ninf : BitVec 32)
    (hr : (M2 a N).Reduces [1] (M1 a)) (hφ : FKind.Formats .f32)
    (hmax : ninf = FKind.maximumf.neutral .f32 hφ) (hadd : (0x00000000#32 : BitVec 32) = FKind.add.neutral .f32 hφ)
    (hc : (M1 a).ShapeCasts (M2 a 1)) (hb : (M2 a 1).Broadcasts (M2 a N)) (p : Fin a) (j : Fin N) :
    subf (subf v (broadcastTo (M2 a N) (shapeCast (M2 a 1) (multiReduction .maximumf [1] (M1 a) v ninf hr hφ hmax) hc) hb))
      (broadcastTo (M2 a N) (log (shapeCast (M2 a 1)
        (multiReduction .add [1] (M1 a) (exp (subf v (broadcastTo (M2 a N) (shapeCast (M2 a 1) (multiReduction .maximumf [1] (M1 a) v ninf hr hφ hmax) hc) hb)))
          0x00000000#32 hr hφ hadd) hc)) hb) (ix2 p j)
      = headRow (FloatOps.ofBits (F := Ideal) .f32 ninf) (fun j => v (ix2 p j)) j := by
  have hsub : ∀ k : Fin N,
      subf v (broadcastTo (M2 a N) (shapeCast (M2 a 1) (multiReduction .maximumf [1] (M1 a) v ninf hr hφ hmax) hc) hb) (ix2 p k)
        = v (ix2 p k) - (Finset.univ : Finset (Fin N)).fold max (FloatOps.ofBits (F := Ideal) .f32 ninf) (fun k => v (ix2 p k)) :=
    fun k => by rw [subf_apply, column_across_apply, rowmax_apply]
  rw [subf_apply, hsub j, Cert.LibPlainDot.broadcastTo_a1_ab_apply]
  show _ - Ideal.log (shapeCast (M2 a 1) _ hc (ix2 p (0 : Fin 1))) = _
  rw [shapeCast_a_a1_apply, rowsum_apply]
  unfold headRow
  congr 2
  exact Finset.sum_congr rfl fun k _ => by
    show Ideal.exp (subf v _ (ix2 p k)) = _
    rw [hsub k]

end Cert.LibRowNet

end
-- ==== Proof.NetSpec.lean ====
/-
  The classifier as ONE function of its thirteen arrays. An image (a row of 784 pixels) goes through two pooled dense layers
  (784 → 1440 → 320: each the largest of the row's products with four matrices, plus a bias, clipped below at zero), a last
  dense layer onto 128 columns with its bias, and the log-softmax of those 128 numbers; the result keeps the first ten
  columns of each of the 16384 rows.
-/
import proofs.«144946_g2000003217861111_pallasbulk_455_2_alg».proof.Proof.LibRowNet

noncomputable section

namespace Cert.NetSpec

open Idealize.ShloMosaic Idealize.ShloMosaic.ValueIdx Cert.LibRowNet

/-- The floor of the clipping (the zero word's value) and the value the running maximum starts from (the word of -∞). -/
abbrev zf : Ideal .f32 := Scalar.ofBits (F := Ideal) .f32 0x00000000#32
abbrev ninf : Ideal .f32 := FloatOps.ofBits (F := Ideal) .f32 0xFF800000#32

/-- One image's 128 log-probabilities. -/
def netRow (x : Fin 784 → EReal)
    (a00 a01 a10 a11 : FVec Ideal (M2 784 1440) .bf16) (b1 : FVec Ideal (M2 1 1440) .f32)
    (c00 c01 c10 c11 : FVec Ideal (M2 1440 320) .bf16) (b2 : FVec Ideal (M2 1 320) .f32)
    (wfc : FVec Ideal (M2 320 128) .bf16) (bfc : FVec Ideal (M2 1 128) .f32) : Fin 128 → EReal :=
  headRow ninf fun j =>
    dotRow
      (poolRow zf
        (poolRow zf x (fun k j => a00 (ix2 k j)) (fun k j => a01 (ix2 k j)) (fun k j => a10 (ix2 k j)) (fun k j => a11 (ix2 k j))
          (fun j => b1 (ix2 0 j)))
        (fun k j => c00 (ix2 k j)) (fun k j => c01 (ix2 k j)) (fun k j => c10 (ix2 k j)) (fun k j => c11 (ix2 k j))
        (fun j => b2 (ix2 0 j)))
      (fun k j => wfc (ix2 k j)) j
    + bfc (ix2 0 j)

/-- All images at once: row `r` of the result is `netRow` of row `r` of the flattened images. -/
def Garr (X : FVec Ideal (M2 16384 784) .f32)
    (a00 a01 a10 a11 : FVec Ideal (M2 784 1440) .bf16) (b1 : FVec Ideal (M2 1 1440) .f32)
    (c00 c01 c10 c11 : FVec Ideal (M2 1440 320) .bf16) (b2 : FVec Ideal (M2 1 320) .f32)
    (wfc : FVec Ideal (M2 320 128) .bf16) (bfc : FVec Ideal (M2 1 128) .f32) : FVec Ideal (M2 16384 128) .f32 :=
  fun i => netRow (fun k => X (ix2 (i 0) k)) a00 a01 a10 a11 b1 c00 c01 c10 c11 b2 wfc bfc (i 1)

theorem hflat : (⟨4, ![16384, 1, 28, 28]⟩ : Shape).ShapeCasts (M2 16384 784) := by decide
theorem hkeep : (M2 16384 128).Slices ![0, 0] (M2 16384 10) := by decide

/-- The result array: the images flattened to rows, `Garr`, the first ten columns kept. -/
def Gout (x : FVec Ideal ⟨4, ![16384, 1, 28, 28]⟩ .f32)
    (a00 a01 a10 a11 : FVec Ideal (M2 784 1440) .bf16) (b1 : FVec Ideal (M2 1 1440) .f32)
    (c00 c01 c10 c11 : FVec Ideal (M2 1440 320) .bf16) (b2 : FVec Ideal (M2 1 320) .f32)
    (wfc : FVec Ideal (M2 320 128) .bf16) (bfc : FVec Ideal (M2 1 128) .f32) : FVec Ideal (M2 16384 10) .f32 :=
  extractStridedSlice (M2 16384 10) ![0, 0]
    (Garr (shapeCast (M2 16384 784) x hflat) a00 a01 a10 a11 b1 c00 c01 c10 c11 b2 wfc bfc) hkeep

end Cert.NetSpec

end
-- ==== Proof.KernelIdealBody.lean ====
/-
  What the kernel's body computes on a block of 256 images, read at one entry: entry (p, j) of the block it stores is the
  classifier's j-th log-probability of the block's image p. The four matrices of each pooled layer reach the body laid side
  by side in one array (`acat`, `ccat`): column `o + j` of the wide array is column `j` of the matrix whose columns start at `o`.
-/
import proofs.«144946_g2000003217861111_pallasbulk_455_2_alg».proof.Proof.Gen.KernelIdeal.Skeleton
import proofs.«144946_g2000003217861111_pallasbulk_455_2_alg».proof.Proof.NetSpec

noncomputable section

namespace Cert.KernelIdeal.Body

open Idealize.ShloMosaic Idealize.ShloMosaic.ValueIdx Cert.LibRowNet Cert.NetSpec
open Cert.KernelIdeal Cert.KernelIdeal.Gen

/-- The three products of the body are plain row-by-column products. -/
theorem plain1 : IsPlain dot_S256x784_S784x5760_S256x5760_1_0_0_1_n_n := ⟨rfl, rfl, rfl, rfl, rfl, rfl⟩
theorem plain2 : IsPlain dot_S256x1440_S1440x1280_S256x1280_1_0_0_1_n_n := ⟨rfl, rfl, rfl, rfl, rfl, rfl⟩
theorem plain3 : IsPlain dot_S256x320_S320x128_S256x128_1_0_0_1_n_n := ⟨rfl, rfl, rfl, rfl, rfl, rfl⟩

/-- On the extended reals a cast to a narrower format changes no value. -/
theorem truncf_id {s : Shape} {φ : FTy} (ψ : FTy) (v : FVec Ideal s φ) (h : ψ.bits < φ.bits) : truncf ψ v h = v := rfl

/-- Entry (p, j) of the 128 numbers the log-softmax is taken of: the last dense layer on the second pooled layer on the
    first pooled layer of row p. The casts to the narrower format and the casts of a shape to itself change no value. -/
theorem pay2_apply (x0 : Vec Ideal S256x784 .f32) (acat : Vec Ideal S784x5760 .bf16) (b1 : Vec Ideal S1x1440 .f32)
    (ccat : Vec Ideal S1440x1280 .bf16) (b2 : Vec Ideal S1x320 .f32) (wfc : Vec Ideal S320x128 .bf16) (bfc : Vec Ideal S1x128 .f32)
    (a00 a01 a10 a11 : FVec Ideal (M2 784 1440) .bf16) (c00 c01 c10 c11 : FVec Ideal (M2 1440 320) .bf16)
    (hA0 : ∀ (k : Fin 784) (j : Fin 1440) (c : Fin 5760), c.val = 0 + j.val → acat (ix2 k c) = a00 (ix2 k j))
    (hA1 : ∀ (k : Fin 784) (j : Fin 1440) (c : Fin 5760), c.val = 1440 + j.val → acat (ix2 k c) = a01 (ix2 k j))
    (hA2 : ∀ (k : Fin 784) (j : Fin 1440) (c : Fin 5760), c.val = 2880 + j.val → acat (ix2 k c) = a10 (ix2 k j))
    (hA3 : ∀ (k : Fin 784) (j : Fin 1440) (c : Fin 5760), c.val = 4320 + j.val → acat (ix2 k c) = a11 (ix2 k j))
    (hC0 : ∀ (k : Fin 1440) (j : Fin 320) (c : Fin 1280), c.val = 0 + j.val → ccat (ix2 k c) = c00 (ix2 k j))
    (hC1 : ∀ (k : Fin 1440) (j : Fin 320) (c : Fin 1280), c.val = 320 + j.val → ccat (ix2 k c) = c01 (ix2 k j))
    (hC2 : ∀ (k : Fin 1440) (j : Fin 320) (c : Fin 1280), c.val = 640 + j.val → ccat (ix2 k c) = c10 (ix2 k j))
    (hC3 : ∀ (k : Fin 1440) (j : Fin 320) (c : Fin 1280), c.val = 960 + j.val → ccat (ix2 k c) = c11 (ix2 k j))
    (p : Fin 256) (j : Fin 128) :
    k0_pay2 (F := Ideal) x0 acat b1 ccat b2 wfc bfc (ix2 p j)
      = dotRow
          (poolRow zf
            (poolRow zf (fun k => x0 (ix2 p k)) (fun k j => a00 (ix2 k j)) (fun k j => a01 (ix2 k j)) (fun k j => a10 (ix2 k j))
              (fun k j => a11 (ix2 k j)) (fun j => b1 (ix2 0 j)))
            (fun k j => c00 (ix2 k j)) (fun k j => c01 (ix2 k j)) (fun k j => c10 (ix2 k j)) (fun k j => c11 (ix2 k j))
            (fun j => b2 (ix2 0 j)))
          (fun k j => wfc (ix2 k j)) j
        + bfc (ix2 0 j) := by
  unfold k0_pay2
  simp only [truncf_id, shapeCast_self]
  refine (logits_apply (a := 256) (K := 320) (N := 128) dot_S256x320_S320x128_S256x128_1_0_0_1_n_n plain3 none _ wfc bfc
    broadcasts_S1x128_S256x128 p j).trans ?_
  refine congrArg (fun r : Fin 320 → EReal => dotRow r (fun k j => wfc (ix2 k j)) j + bfc (ix2 0 j)) ?_
  funext k
  refine (pool_cat_apply (a := 256) (K := 1440) (N := 320) (N4 := 1280) dot_S256x1440_S1440x1280_S256x1280_1_0_0_1_n_n plain2 none
    0 320 640 960 _ ccat b2 zf slices_S256x1280_o0_0_S256x320 slices_S256x1280_o0_320_S256x320
    slices_S256x1280_o0_640_S256x320 slices_S256x1280_o0_960_S256x320 broadcasts_S1x320_S256x320
    (fun k j => c00 (ix2 k j)) (fun k j => c01 (ix2 k j)) (fun k j => c10 (ix2 k j)) (fun k j => c11 (ix2 k j))
    hC0 hC1 hC2 hC3 p k).trans ?_
  refine congrArg (fun r : Fin 1440 → EReal => poolRow zf r (fun k j => c00 (ix2 k j)) (fun k j => c01 (ix2 k j))
    (fun k j => c10 (ix2 k j)) (fun k j => c11 (ix2 k j)) (fun j => b2 (ix2 0 j)) k) ?_
  funext k'
  exact pool_cat_apply (a := 256) (K := 784) (N := 1440) (N4 := 5760) dot_S256x784_S784x5760_S256x5760_1_0_0_1_n_n plain1 none
    0 1440 2880 4320 x0 acat b1 zf slices_S256x5760_o0_0_S256x1440 slices_S256x5760_o0_1440_S256x1440
    slices_S256x5760_o0_2880_S256x1440 slices_S256x5760_o0_4320_S256x1440 broadcasts_S1x1440_S256x1440
    (fun k j => a00 (ix2 k j)) (fun k j => a01 (ix2 k j)) (fun k j => a10 (ix2 k j)) (fun k j => a11 (ix2 k j))
    hA0 hA1 hA2 hA3 p k'

/-- Entry (p, j) of what the body stores is `netRow` of row p of its image block. -/
theorem body_apply (x0 : Vec Ideal S256x784 .f32) (acat : Vec Ideal S784x5760 .bf16) (b1 : Vec Ideal S1x1440 .f32)
    (ccat : Vec Ideal S1440x1280 .bf16) (b2 : Vec Ideal S1x320 .f32) (wfc : Vec Ideal S320x128 .bf16) (bfc : Vec Ideal S1x128 .f32)
    (a00 a01 a10 a11 : FVec Ideal (M2 784 1440) .bf16) (c00 c01 c10 c11 : FVec Ideal (M2 1440 320) .bf16)
    (hA0 : ∀ (k : Fin 784) (j : Fin 1440) (c : Fin 5760), c.val = 0 + j.val → acat (ix2 k c) = a00 (ix2 k j))
    (hA1 : ∀ (k : Fin 784) (j : Fin 1440) (c : Fin 5760), c.val = 1440 + j.val → acat (ix2 k c) = a01 (ix2 k j))
    (hA2 : ∀ (k : Fin 784) (j : Fin 1440) (c : Fin 5760), c.val = 2880 + j.val → acat (ix2 k c) = a10 (ix2 k j))
    (hA3 : ∀ (k : Fin 784) (j : Fin 1440) (c : Fin 5760), c.val = 4320 + j.val → acat (ix2 k c) = a11 (ix2 k j))
    (hC0 : ∀ (k : Fin 1440) (j : Fin 320) (c : Fin 1280), c.val = 0 + j.val → ccat (ix2 k c) = c00 (ix2 k j))
    (hC1 : ∀ (k : Fin 1440) (j : Fin 320) (c : Fin 1280), c.val = 320 + j.val → ccat (ix2 k c) = c01 (ix2 k j))
    (hC2 : ∀ (k : Fin 1440) (j : Fin 320) (c : Fin 1280), c.val = 640 + j.val → ccat (ix2 k c) = c10 (ix2 k j))
    (hC3 : ∀ (k : Fin 1440) (j : Fin 320) (c : Fin 1280), c.val = 960 + j.val → ccat (ix2 k c) = c11 (ix2 k j))
    (p : Fin 256) (j : Fin 128) :
    k0_pay1 (F := Ideal) (k0_pay2 (F := Ideal) x0 acat b1 ccat b2 wfc bfc) (ix2 p j)
      = netRow (fun k => x0 (ix2 p k)) a00 a01 a10 a11 b1 c00 c01 c10 c11 b2 wfc bfc j := by
  unfold k0_pay1
  refine (head_apply (a := 256) (N := 128) (k0_pay2 (F := Ideal) x0 acat b1 ccat b2 wfc bfc) 0xFF800000#32
    reduces_S256x128_S256 (.inl rfl) rfl rfl shapeCasts_S256_S256x1 broadcasts_S256x1_S256x128 p j).trans ?_
  unfold netRow
  refine congrArg (fun l : Fin 128 → EReal => headRow ninf l j) ?_
  funext j'
  exact pay2_apply x0 acat b1 ccat b2 wfc bfc a00 a01 a10 a11 c00 c01 c10 c11 hA0 hA1 hA2 hA3 hC0 hC1 hC2 hC3 p j'

end Cert.KernelIdeal.Body

end
-- ==== Proof.KernelIdealValue.lean ====
/-
  The kernel program's result, as the one function of its arguments: the result buffer ends holding `NetSpec.Gout` of the
  thirteen argument arrays, and the arguments are kept.
-/
import proofs.«144946_g2000003217861111_pallasbulk_455_2_alg».proof.Proof.KernelIdealFrame
import proofs.«144946_g2000003217861111_pallasbulk_455_2_alg».proof.Proof.KernelIdealBody
import proofs.«144946_g2000003217861111_pallasbulk_455_2_alg».proof.Proof.NetSpec
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem
open Idealize.ShloMosaic.Pipeline (Dat)

namespace Cert.KernelIdeal.Val

open Cert.KernelIdeal Cert.KernelIdeal.Gen Cert.KernelIdeal.Frame Idealize.ShloMosaic.ValueIdx Cert.LibRowNet Cert.NetSpec

variable (m : (ℓ : Loc nD τ sig) → Buf (Elt Ideal) ℓ) (ρ : Dev nD → PrngReg)

theorem hz : (![0, 0] : Fin 2 → Nat) = fun _ => 0 := funext fun a => by fin_cases a <;> rfl

/-- The flattened images as the grid finds them. -/
theorem V_v0 (c : Dev nD) : (V m c main_v0 : S16384x784.Idx → EReal)
    = shapeCast S16384x784 (m ((c.tc : Thread nD τ).loc main_arg0)) shapeCasts_S16384x1x28x28_S16384x784 := by
  dsimp only [V, V0]
  simp only [hostOps0, List.flatten_cons, List.flatten_nil, List.append_nil, List.cons_append, List.nil_append]
  after_results
  rfl

/-- The first layer's four matrices side by side, as the grid finds them. -/
theorem V_v1 (c : Dev nD) : (V m c main_v1 : S784x5760.Idx → EReal)
    = concatenate S784x5760 1 [⟨S784x1440, m ((c.tc : Thread nD τ).loc main_arg1)⟩, ⟨S784x1440, m ((c.tc : Thread nD τ).loc main_arg2)⟩,
        ⟨S784x1440, m ((c.tc : Thread nD τ).loc main_arg3)⟩, ⟨S784x1440, m ((c.tc : Thread nD τ).loc main_arg4)⟩]
        concatenates_S784x1440_S784x1440_S784x1440_S784x1440_S784x5760_d1 := by
  dsimp only [V, V0]
  simp only [hostOps0, List.flatten_cons, List.flatten_nil, List.append_nil, List.cons_append, List.nil_append]
  after_results
  rfl

/-- The second layer's four matrices side by side, as the grid finds them. -/
theorem V_v2 (c : Dev nD) : (V m c main_v2 : S1440x1280.Idx → EReal)
    = concatenate S1440x1280 1 [⟨S1440x320, m ((c.tc : Thread nD τ).loc main_arg6)⟩, ⟨S1440x320, m ((c.tc : Thread nD τ).loc main_arg7)⟩,
        ⟨S1440x320, m ((c.tc : Thread nD τ).loc main_arg8)⟩, ⟨S1440x320, m ((c.tc : Thread nD τ).loc main_arg9)⟩]
        concatenates_S1440x320_S1440x320_S1440x320_S1440x320_S1440x1280_d1 := by
  dsimp only [V, V0]
  simp only [hostOps0, List.flatten_cons, List.flatten_nil, List.append_nil, List.cons_append, List.nil_append]
  after_results
  rfl

/-- The index maps over the grid: the image window and the output window move with the point along the rows; every other
    window stays at block (0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

/-- The image window's block at point `t` is rows `256·t … 256·t + 255` of the flattened images. -/
theorem iblk0_apply (c : Dev nD) (t : Fin cfg0.N) (p : Fin 256) (k : Fin 784) (r : Fin 16384) (hr : r.val = 256 * t.val + p.val) :
    (iblk m c 0 t : Vec Ideal S256x784 .f32) (ix2 p k) = (V m c main_v0 : S16384x784.Idx → EReal) (ix2 r k) := by
  obtain ⟨e0, e1, -⟩ := idx_facts t
  unfold iblk
  rw [View.read_apply]
  show V m c main_v0 _ = V m c main_v0 _
  congr 1
  funext a
  apply Fin.ext
  match a with
  | ⟨0, _⟩ => show win0_0.index t (0 : Fin 2) * 256 + 1 * p.val = r.val; rw [e0, hr]; omega
  | ⟨1, _⟩ => show win0_0.index t (1 : Fin 2) * 784 + 1 * k.val = k.val; rw [e1]; omega

/-- Every other input window's block, at every point, is its whole array. -/
theorem iblk1_eq (c : Dev nD) (t : Fin cfg0.N) : (iblk m c 1 t : Vec Ideal S784x5760 .bf16) = (V m c main_v1 : S784x5760.Idx → EReal) := by
  obtain ⟨-, -, e0, e1, -⟩ := idx_facts t
  unfold iblk
  refine funext fun (y : S784x5760.Idx) => ?_
  rw [View.read_apply]
  show V m c main_v1 _ = V m c main_v1 _
  congr 1
  funext a
  apply Fin.ext
  match a with
  | ⟨0, _⟩ => show win0_1.index t (0 : Fin 2) * 784 + 1 * (y 0).val = (y 0).val; rw [e0]; omega
  | ⟨1, _⟩ => show win0_1.index t (1 : Fin 2) * 5760 + 1 * (y 1).val = (y 1).val; rw [e1]; omega

theorem iblk2_eq (c : Dev nD) (t : Fin cfg0.N) : (iblk m c 2 t : Vec Ideal S1x1440 .f32) = (V m c main_arg5 : S1x1440.Idx → EReal) := by
  obtain ⟨-, -, -, -, e0, e1, -⟩ := idx_facts t
  unfold iblk
  refine funext fun (y : S1x1440.Idx) => ?_
  rw [View.read_apply]
  show V m c main_arg5 _ = V m c main_arg5 _
  congr 1
  funext a
  apply Fin.ext
  match a with
  | ⟨0, _⟩ => show win0_2.index t (0 : Fin 2) * 1 + 1 * (y 0).val = (y 0).val; rw [e0]; omega
  | ⟨1, _⟩ => show win0_2.index t (1 : Fin 2) * 1440 + 1 * (y 1).val = (y 1).val; rw [e1]; omega

theorem iblk3_eq (c : Dev nD) (t : Fin cfg0.N) : (iblk m c 3 t : Vec Ideal S1440x1280 .bf16) = (V m c main_v2 : S1440x1280.Idx → EReal) := by
  obtain ⟨-, -, -, -, -, -, e0, e1, -⟩ := idx_facts t
  unfold iblk
  refine funext fun (y : S1440x1280.Idx) => ?_
  rw [View.read_apply]
  show V m c main_v2 _ = V m c main_v2 _
  congr 1
  funext a
  apply Fin.ext
  match a with
  | ⟨0, _⟩ => show win0_3.index t (0 : Fin 2) * 1440 + 1 * (y 0).val = (y 0).val; rw [e0]; omega
  | ⟨1, _⟩ => show win0_3.index t (1 : Fin 2) * 1280 + 1 * (y 1).val = (y 1).val; rw [e1]; omega

theorem iblk4_eq (c : Dev nD) (t : Fin cfg0.N) : (iblk m c 4 t : Vec Ideal S1x320 .f32) = (V m c main_arg10 : S1x320.Idx → EReal) := by
  obtain ⟨-, -, -, -, -, -, -, -, e0, e1, -⟩ := idx_facts t
  unfold iblk
  refine funext fun (y : S1x320.Idx) => ?_
  rw [View.read_apply]
  show V m c main_arg10 _ = V m c main_arg10 _
  congr 1
  funext a
  apply Fin.ext
  match a with
  | ⟨0, _⟩ => show win0_4.index t (0 : Fin 2) * 1 + 1 * (y 0).val = (y 0).val; rw [e0]; omega
  | ⟨1, _⟩ => show win0_4.index t (1 : Fin 2) * 320 + 1 * (y 1).val = (y 1).val; rw [e1]; omega

theorem iblk5_eq (c : Dev nD) (t : Fin cfg0.N) : (iblk m c 5 t : Vec Ideal S320x128 .bf16) = (V m c main_arg11 : S320x128.Idx → EReal) := by
  obtain ⟨-, -, -, -, -, -, -, -, -, -, e0, e1, -⟩ := idx_facts t
  unfold iblk
  refine funext fun (y : S320x128.Idx) => ?_
  rw [View.read_apply]
  show V m c main_arg11 _ = V m c main_arg11 _
  congr 1
  funext a
  apply Fin.ext
  match a with
  | ⟨0, _⟩ => show win0_5.index t (0 : Fin 2) * 320 + 1 * (y 0).val = (y 0).val; rw [e0]; omega
  | ⟨1, _⟩ => show win0_5.index t (1 : Fin 2) * 128 + 1 * (y 1).val = (y 1).val; rw [e1]; omega

theorem iblk6_eq (c : Dev nD) (t : Fin cfg0.N) : (iblk m c 6 t : Vec Ideal S1x128 .f32) = (V m c main_arg12 : S1x128.Idx → EReal) := by
  obtain ⟨-, -, -, -, -, -, -, -, -, -, -, -, e0, e1, -⟩ := idx_facts t
  unfold iblk
  refine funext fun (y : S1x128.Idx) => ?_
  rw [View.read_apply]
  show V m c main_arg12 _ = V m c main_arg12 _
  congr 1
  funext a
  apply Fin.ext
  match a with
  | ⟨0, _⟩ => show win0_6.index t (0 : Fin 2) * 1 + 1 * (y 0).val = (y 0).val; rw [e0]; omega
  | ⟨1, _⟩ => show win0_6.index t (1 : Fin 2) * 128 + 1 * (y 1).val = (y 1).val; rw [e1]; omega

/-! ## Four matrices side by side, read column by column -/

/-- Column `o + j` of four `K × N` matrices laid side by side is column `j` of the matrix whose columns start at `o`
    (`o = q·N` for the matrix number `q`). -/
theorem cat4_apply {α : Type} {K N N4 : ℕ} (x0 x1 x2 x3 : (M2 K N).Idx → α)
    (h : Shape.Concatenates [M2 K N, M2 K N, M2 K N, M2 K N] (M2 K N4) 1) (k : Fin K) (j : Fin N) (col : Fin N4) :
    (col.val = 0 + j.val → concatenate (M2 K N4) 1 [⟨M2 K N, x0⟩, ⟨M2 K N, x1⟩, ⟨M2 K N, x2⟩, ⟨M2 K N, x3⟩] h (ix2 k col) = x0 (ix2 k j))
    ∧ (col.val = N + j.val → concatenate (M2 K N4) 1 [⟨M2 K N, x0⟩, ⟨M2 K N, x1⟩, ⟨M2 K N, x2⟩, ⟨M2 K N, x3⟩] h (ix2 k col) = x1 (ix2 k j))
    ∧ (col.val = 2 * N + j.val → concatenate (M2 K N4) 1 [⟨M2 K N, x0⟩, ⟨M2 K N, x1⟩, ⟨M2 K N, x2⟩, ⟨M2 K N, x3⟩] h (ix2 k col) = x2 (ix2 k j))
    ∧ (col.val = 3 * N + j.val → concatenate (M2 K N4) 1 [⟨M2 K N, x0⟩, ⟨M2 K N, x1⟩, ⟨M2 K N, x2⟩, ⟨M2 K N, x3⟩] h (ix2 k col) = x3 (ix2 k j)) := by
  have hoff : ∀ b : Fin (M2 K N).rank, b.cast (rfl : (M2 K N).rank = (M2 K N4).rank) ≠ (1 : Fin 2) →
      ((ix2 k j : (M2 K N).Idx) b).val = ((ix2 k col : (M2 K N4).Idx) (b.cast rfl)).val := fun b hb => by
    match b with
    | ⟨0, _⟩ => rfl
    | ⟨1, _⟩ => exact absurd rfl hb
  refine ⟨fun hc => ?_, fun hc => ?_, fun hc => ?_, fun hc => ?_⟩
  · exact concatenate_apply_piece (t := M2 K N4) (1 : Fin 2) [⟨M2 K N, x0⟩, ⟨M2 K N, x1⟩, ⟨M2 K N, x2⟩, ⟨M2 K N, x3⟩] h (ix2 k col) 0
      (by show (0 : ℕ) < 4; omega) (M2 K N) x0 rfl rfl 0 (by simp) (ix2 k j) hoff (by show 0 + j.val = col.val; omega)
  · exact concatenate_apply_piece (t := M2 K N4) (1 : Fin 2) [⟨M2 K N, x0⟩, ⟨M2 K N, x1⟩, ⟨M2 K N, x2⟩, ⟨M2 K N, x3⟩] h (ix2 k col) 1
      (by show (1 : ℕ) < 4; omega) (M2 K N) x1 rfl rfl N (by simp) (ix2 k j) hoff (by show N + j.val = col.val; omega)
  · exact concatenate_apply_piece (t := M2 K N4) (1 : Fin 2) [⟨M2 K N, x0⟩, ⟨M2 K N, x1⟩, ⟨M2 K N, x2⟩, ⟨M2 K N, x3⟩] h (ix2 k col) 2
      (by show (2 : ℕ) < 4; omega) (M2 K N) x2 rfl rfl (2 * N) (by simp; omega) (ix2 k j) hoff (by show 2 * N + j.val = col.val; omega)
  · exact concatenate_apply_piece (t := M2 K N4) (1 : Fin 2) [⟨M2 K N, x0⟩, ⟨M2 K N, x1⟩, ⟨M2 K N, x2⟩, ⟨M2 K N, x3⟩] h (ix2 k col) 3
      (by show (3 : ℕ) < 4; omega) (M2 K N) x3 rfl rfl (3 * N) (by simp; omega) (ix2 k j) hoff (by show 3 * N + j.val = col.val; omega)

/-! ## What a point writes back -/

/-- The whole 16384 × 128 result, before the first ten columns are kept: `Garr` of the flattened images and the twelve
    weight arrays as launched. -/
abbrev Gfull (c : Dev nD) : FVec Ideal (M2 16384 128) .f32 :=
  Garr (shapeCast (M2 16384 784) (m ((c.tc : Thread nD τ).loc main_arg0)) hflat)
    (m ((c.tc : Thread nD τ).loc main_arg1)) (m ((c.tc : Thread nD τ).loc main_arg2)) (m ((c.tc : Thread nD τ).loc main_arg3))
    (m ((c.tc : Thread nD τ).loc main_arg4)) (m ((c.tc : Thread nD τ).loc main_arg5)) (m ((c.tc : Thread nD τ).loc main_arg6))
    (m ((c.tc : Thread nD τ).loc main_arg7)) (m ((c.tc : Thread nD τ).loc main_arg8)) (m ((c.tc : Thread nD τ).loc main_arg9))
    (m ((c.tc : Thread nD τ).loc main_arg10)) (m ((c.tc : Thread nD τ).loc main_arg11)) (m ((c.tc : Thread nD τ).loc main_arg12))

/-- One entry of what the body stores, from blocks that are: some 256 rows of the images `X` (row `p` of the block being row
    `r` of `X`), the two wide arrays the concatenations of the eight matrices, and the four small arrays themselves. It is
    entry `(r, j)` of `Garr`. -/
theorem point_apply (X : FVec Ideal (M2 16384 784) .f32)
    (a00 a01 a10 a11 : FVec Ideal (M2 784 1440) .bf16) (b1 : FVec Ideal (M2 1 1440) .f32)
    (c00 c01 c10 c11 : FVec Ideal (M2 1440 320) .bf16) (b2 : FVec Ideal (M2 1 320) .f32)
    (wfc : FVec Ideal (M2 320 128) .bf16) (bfc : FVec Ideal (M2 1 128) .f32)
    (x0 : Vec Ideal S256x784 .f32) (acat : Vec Ideal S784x5760 .bf16) (b1v : Vec Ideal S1x1440 .f32)
    (ccat : Vec Ideal S1440x1280 .bf16) (b2v : Vec Ideal S1x320 .f32) (wfcv : Vec Ideal S320x128 .bf16) (bfcv : Vec Ideal S1x128 .f32)
    (hacat : acat = concatenate S784x5760 1 [⟨S784x1440, a00⟩, ⟨S784x1440, a01⟩, ⟨S784x1440, a10⟩, ⟨S784x1440, a11⟩]
      concatenates_S784x1440_S784x1440_S784x1440_S784x1440_S784x5760_d1)
    (hb1 : b1v = b1)
    (hccat : ccat = concatenate S1440x1280 1 [⟨S1440x320, c00⟩, ⟨S1440x320, c01⟩, ⟨S1440x320, c10⟩, ⟨S1440x320, c11⟩]
      concatenates_S1440x320_S1440x320_S1440x320_S1440x320_S1440x1280_d1)
    (hb2 : b2v = b2) (hwfc : wfcv = wfc) (hbfc : bfcv = bfc)
    (p : Fin 256) (j : Fin 128) (r : Fin 16384) (hx0 : ∀ k : Fin 784, x0 (ix2 p k) = X (ix2 r k)) :
    k0_pay1 (F := Ideal) (k0_pay2 (F := Ideal) x0 acat b1v ccat b2v wfcv bfcv) (ix2 p j)
      = Garr X a00 a01 a10 a11 b1 c00 c01 c10 c11 b2 wfc bfc (ix2 r j) := by
  subst hacat hb1 hccat hb2 hwfc hbfc
  refine (Body.body_apply x0 _ _ _ _ _ _ a00 a01 a10 a11 c00 c01 c10 c11
    (fun k j' col h => (cat4_apply (K := 784) (N := 1440) (N4 := 5760) a00 a01 a10 a11 _ k j' col).1 h)
    (fun k j' col h => (cat4_apply (K := 784) (N := 1440) (N4 := 5760) a00 a01 a10 a11 _ k j' col).2.1 h)
    (fun k j' col h => (cat4_apply (K := 784) (N := 1440) (N4 := 5760) a00 a01 a10 a11 _ k j' col).2.2.1 (by omega))
    (fun k j' col h => (cat4_apply (K := 784) (N := 1440) (N4 := 5760) a00 a01 a10 a11 _ k j' col).2.2.2 (by omega))
    (fun k j' col h => (cat4_apply (K := 1440) (N := 320) (N4 := 1280) c00 c01 c10 c11 _ k j' col).1 h)
    (fun k j' col h => (cat4_apply (K := 1440) (N := 320) (N4 := 1280) c00 c01 c10 c11 _ k j' col).2.1 h)
    (fun k j' col h => (cat4_apply (K := 1440) (N := 320) (N4 := 1280) c00 c01 c10 c11 _ k j' col).2.2.1 (by omega))
    (fun k j' col h => (cat4_apply (K := 1440) (N := 320) (N4 := 1280) c00 c01 c10 c11 _ k j' col).2.2.2 (by omega))
    p j).trans ?_
  unfold Garr
  exact congrArg (fun row : Fin 784 → EReal => netRow row a00 a01 a10 a11 _ c00 c01 c10 c11 _ _ _ j) (funext hx0)

/-- WHAT POINT `t` WRITES BACK is block `t` (rows `256·t … 256·t + 255`) of `Gfull`. -/
theorem flushed_eq (c : Dev nD) (t : Fin cfg0.N) :
    (dats m 0 c).flushed 7 t = ((cfg0.win 7).blk t).view.read (Elt Ideal) (Gfull m c) := by
  show (cfg0.win 7).cut (grid0.coords t) ((dats m 0 c).after 7 t) = _
  rw [after0_7]
  unfold out0_7
  rw [View.canon_unit_zero hz]
  simp only [View.ld_unit_zero (S := S256x784) hz, View.ld_unit_zero (S := S784x5760) hz, View.ld_unit_zero (S := S1x1440) hz,
    View.ld_unit_zero (S := S1440x1280) hz, View.ld_unit_zero (S := S1x320) hz, View.ld_unit_zero (S := S320x128) hz,
    View.ld_unit_zero (S := S1x128) hz]
  have hN : cfg0.N = 64 := N_0
  obtain ⟨-, -, -, -, -, -, -, -, -, -, -, -, -, -, e0, e1⟩ := idx_facts t
  refine funext fun (y : S256x128.Idx) => ?_
  obtain ⟨p, j, rfl⟩ : ∃ (p : Fin 256) (j : Fin 128), y = ix2 p j := ⟨y 0, y 1, eq_ix2 y⟩
  have hr : 256 * t.val + p.val < 16384 := by have := t.isLt; have := p.isLt; omega
  have hemb : ((cfg0.win 7).blk t).view.emb (ix2 p j) = (ix2 (⟨256 * t.val + p.val, hr⟩ : Fin 16384) j : S16384x128.Idx) := by
    funext a; apply Fin.ext
    match a with
    | ⟨0, _⟩ => show win0_7.index t (0 : Fin 2) * 256 + 1 * p.val = 256 * t.val + p.val; rw [e0]; omega
    | ⟨1, _⟩ => show win0_7.index t (1 : Fin 2) * 128 + 1 * j.val = j.val; rw [e1]; omega
  show k0_pay1 (F := Ideal) (k0_pay2 (F := Ideal) (iblk m c 0 t) (iblk m c 1 t) (iblk m c 2 t) (iblk m c 3 t) (iblk m c 4 t) (iblk m c 5 t) (iblk m c 6 t)) (ix2 p j)
    = Gfull m c (((cfg0.win 7).blk t).view.emb (ix2 p j))
  rw [hemb]
  exact point_apply _ _ _ _ _ _ _ _ _ _ _ _ _ (iblk m c 0 t) (iblk m c 1 t) (iblk m c 2 t) (iblk m c 3 t) (iblk m c 4 t) (iblk m c 5 t) (iblk m c 6 t)
    ((iblk1_eq m c t).trans (V_v1 m c))
    ((iblk2_eq m c t).trans (V_kept m c main_arg5 (by decide) (by decide) (by decide)))
    ((iblk3_eq m c t).trans (V_v2 m c))
    ((iblk4_eq m c t).trans (V_kept m c main_arg10 (by decide) (by decide) (by decide)))
    ((iblk5_eq m c t).trans (V_kept m c main_arg11 (by decide) (by decide) (by decide)))
    ((iblk6_eq m c t).trans (V_kept m c main_arg12 (by decide) (by decide) (by decide)))
    p j ⟨256 * t.val + p.val, hr⟩
    (fun k => (iblk0_apply m c t p k ⟨256 * t.val + p.val, hr⟩ rfl).trans (congrFun (V_v0 m c) _))

/-! ## The output's blocks tile the array -/

/-- An index of the 16384 × 128 array is in point `t`'s block iff each coordinate is in the block's range on its axis. -/
theorem mem_blk (t : Fin cfg0.N) (i : S16384x128.Idx) :
    i ∈ ((cfg0.win 7).blk t).view.set ↔ ∀ a : Fin 2, win0_7.index t a * S256x128.size a ≤ (i a).val ∧ (i a).val < win0_7.index t a * S256x128.size a + S256x128.size a := by
  show i ∈ ((View.whole main_v3).slice (win0_7.rect t)).set ↔ _
  rw [View.set_slice_whole, Rect.mem_set_unit]
  exact Iff.rfl

/-- Row `i` lies in the block of the point `⌊i / 256⌋`, which writes back like every point. -/
theorem cover (i : S16384x128.Idx) : ∃ t : Fin cfg0.N, (cfg0.win 7).flush t = true ∧ i ∈ ((cfg0.win 7).blk t).view.set := by
  have hi0 : (i 0).val < 16384 := (i 0).isLt
  have hi1 : (i 1).val < 128 := (i 1).isLt
  have hN : cfg0.N = 64 := N_0
  obtain ⟨t, ht⟩ : ∃ t : Fin cfg0.N, t.val = (i 0).val / 256 := ⟨⟨(i 0).val / 256, by rw [hN]; omega⟩, rfl⟩
  obtain ⟨-, -, -, -, -, -, -, -, -, -, -, -, -, -, e0, e1⟩ := idx_facts t
  refine ⟨t, flush0_7 t, ?_⟩
  rw [mem_blk]
  intro a
  match a with
  | ⟨0, _⟩ => show win0_7.index t (0 : Fin 2) * 256 ≤ (i 0).val ∧ (i 0).val < win0_7.index t (0 : Fin 2) * 256 + 256; rw [e0, ht]; omega
  | ⟨1, _⟩ => show win0_7.index t (1 : Fin 2) * 128 ≤ (i 1).val ∧ (i 1).val < win0_7.index t (1 : Fin 2) * 128 + 128; rw [e1]; omega

/-- THE ARRAY after the grid: `Gfull`. -/
theorem final (c : Dev nD) : (dats m 0 c).arrAt 7 cfg0.N = Gfull m c :=
  (dats m 0 c).arrAt_eq_of_cover 7 (Gfull m c) (fun t _ => flushed_eq m c t) fun i => cover i

/-! ## The last host operation -/

/-- The result buffer ends at the first ten columns of what the grid leaves in its output array. -/
theorem tail_v4 (c : Dev nD) : Pipeline.afterTail₀ cfgs (dats m) 0 (V0 m) [hostOps1] c main_v4
    = extractStridedSlice S16384x10 ![0, 0] ((dats m 0 c).arrAt 7 cfg0.N) slices_S16384x128_S16384x10_0_0 := by
  unfold Pipeline.afterTail₀
  show StableHlo.after hostOps1 _ (Proc.devRef .tc main_v4) = _
  after_results
  exact congrArg (fun x => extractStridedSlice S16384x10 ![0, 0] x slices_S16384x128_S16384x10_0_0)
    (Pipeline.withArrays_arr spec0 launch0.win.arr_inj c _ _ 7)

/-- The result buffer after the run is `Gout` of the arguments. -/
theorem result_v4 (c : Dev nD) : Pipeline.afterTail₀ cfgs (dats m) 0 (V0 m) [hostOps1] c main_v4
    = Gout (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) := by
  rw [tail_v4, final]
  unfold Gout
  rfl

/-! ## The run, read -/

/-- The run, read: the result at `Gout` of the arguments, the arguments unchanged. -/
theorem run : θ_run (defs (F := Ideal)) (onTc (τ := τ) (main (F := Ideal))) ⟨m, fun _ => 0, ρ⟩ (fun r => ∀ c : Dev nD,
      r.2.mem ((c.tc : Thread nD τ).loc main_v4) = Gout (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c => ⟨
      ((h c).2 main_v4 (Pipeline.mem_restRefs_of main_v4 (by decide) (by decide))).trans (result_v4 m c),
      ((h c).2 main_arg0 (Pipeline.mem_restRefs_of main_arg0 (by decide) (by decide))).trans ((W_kept m (dats m) c main_arg0 (by decide) (by decide)).trans (V_kept m c main_arg0 (by decide) (by decide) (by decide))),
      ((h c).2 main_arg1 (Pipeline.mem_restRefs_of main_arg1 (by decide) (by decide))).trans ((W_kept m (dats m) c main_arg1 (by decide) (by decide)).trans (V_kept m c main_arg1 (by decide) (by decide) (by decide))),
      ((h c).2 main_arg2 (Pipeline.mem_restRefs_of main_arg2 (by decide) (by decide))).trans ((W_kept m (dats m) c main_arg2 (by decide) (by decide)).trans (V_kept m c main_arg2 (by decide) (by decide) (by decide))),
      ((h c).2 main_arg3 (Pipeline.mem_restRefs_of main_arg3 (by decide) (by decide))).trans ((W_kept m (dats m) c main_arg3 (by decide) (by decide)).trans (V_kept m c main_arg3 (by decide) (by decide) (by decide))),
      ((h c).2 main_arg4 (Pipeline.mem_restRefs_of main_arg4 (by decide) (by decide))).trans ((W_kept m (dats m) c main_arg4 (by decide) (by decide)).trans (V_kept m c main_arg4 (by decide) (by decide) (by decide))),
      ((h c).1 2).trans (((dats m 0 c).arrAt_in 2 rfl _).trans ((A_eq m c 2).trans (V_kept m c main_arg5 (by decide) (by decide) (by decide)))),
      ((h c).2 main_arg6 (Pipeline.mem_restRefs_of main_arg6 (by decide) (by decide))).trans ((W_kept m (dats m) c main_arg6 (by decide) (by decide)).trans (V_kept m c main_arg6 (by decide) (by decide) (by decide))),
      ((h c).2 main_arg7 (Pipeline.mem_restRefs_of main_arg7 (by decide) (by decide))).trans ((W_kept m (dats m) c main_arg7 (by decide) (by decide)).trans (V_kept m c main_arg7 (by decide) (by decide) (by decide))),
      ((h c).2 main_arg8 (Pipeline.mem_restRefs_of main_arg8 (by decide) (by decide))).trans ((W_kept m (dats m) c main_arg8 (by decide) (by decide)).trans (V_kept m c main_arg8 (by decide) (by decide) (by decide))),
      ((h c).2 main_arg9 (Pipeline.mem_restRefs_of main_arg9 (by decide) (by decide))).trans ((W_kept m (dats m) c main_arg9 (by decide) (by decide)).trans (V_kept m c main_arg9 (by decide) (by decide) (by decide))),
      ((h c).1 4).trans (((dats m 0 c).arrAt_in 4 rfl _).trans ((A_eq m c 4).trans (V_kept m c main_arg10 (by decide) (by decide) (by decide)))),
      ((h c).1 5).trans (((dats m 0 c).arrAt_in 5 rfl _).trans ((A_eq m c 5).trans (V_kept m c main_arg11 (by decide) (by decide) (by decide)))),
      ((h c).1 6).trans (((dats m 0 c).arrAt_in 6 rfl _).trans ((A_eq m c 6).trans (V_kept m c main_arg12 (by decide) (by decide) (by decide))))⟩)
    (run_main m ρ)

end Cert.KernelIdeal.Val

end
-- ==== Proof.ReferenceIdealBody.lean ====
/-
  What the reference's body computes on a block of 128 images, read at one entry: entry (p, j) of the block it stores is the
  classifier's j-th log-probability of the block's image p.
-/
import proofs.«144946_g2000003217861111_pallasbulk_455_2_alg».proof.Proof.Gen.ReferenceIdeal.Skeleton
import proofs.«144946_g2000003217861111_pallasbulk_455_2_alg».proof.Proof.NetSpec

noncomputable section

namespace Cert.ReferenceIdeal.Body

open Idealize.ShloMosaic Idealize.ShloMosaic.ValueIdx Cert.LibRowNet Cert.NetSpec
open Cert.ReferenceIdeal Cert.ReferenceIdeal.Gen

/-- Entry (p, j) of what the body stores is `netRow` of row p of its image block. -/
theorem body_apply (x0 : Vec Ideal S128x784 .bf16)
    (a00 a01 a10 a11 : Vec Ideal S784x1440 .bf16) (b1 : Vec Ideal S1x1440 .f32)
    (c00 c01 c10 c11 : Vec Ideal S1440x320 .bf16) (b2 : Vec Ideal S1x320 .f32)
    (wfc : Vec Ideal S320x128 .bf16) (bfc : Vec Ideal S1x128 .f32) (p : Fin 128) (j : Fin 128) :
    k0_pay1 (F := Ideal) (k0_pay2 (F := Ideal) x0 a00 a01 a10 a11 b1 c00 c01 c10 c11) b2 wfc bfc (ix2 p j)
      = netRow (fun k => x0 (ix2 p k)) a00 a01 a10 a11 b1 c00 c01 c10 c11 b2 wfc bfc j := by
  -- the three products are plain: rows by columns, one shared axis
  have hD1 : IsPlain dot_S128x784_S784x1440_S128x1440_1_0_0_1_n_n := ⟨rfl, rfl, rfl, rfl, rfl, rfl⟩
  have hD2 : IsPlain dot_S128x1440_S1440x320_S128x320_1_0_0_1_n_n := ⟨rfl, rfl, rfl, rfl, rfl, rfl⟩
  have hD3 : IsPlain dot_S128x320_S320x128_S128x128_1_0_0_1_n_n := ⟨rfl, rfl, rfl, rfl, rfl, rfl⟩
  unfold k0_pay1 k0_pay2
  -- outermost, the log-softmax along the columns: entry (p, j) is the log-softmax of row p of the logits
  refine (head_apply (a := 128) (N := 128) _ 0xFF800000#32 reduces_S128x128_S128 (.inl rfl) rfl rfl
    shapeCasts_S128_S128x1 broadcasts_S128x1_S128x128 p j).trans ?_
  unfold netRow
  refine congrArg (fun l => headRow ninf l j) (funext fun j' => ?_)
  -- the logits: row p of the second pooled layer times the last matrix, plus its bias
  refine (logits_apply _ hD3 none _ wfc bfc broadcasts_S1x128_S128x128 p j').trans ?_
  refine congrArg (fun r => dotRow r (fun k j => wfc (ix2 k j)) j' + bfc (ix2 0 j')) (funext fun k => ?_)
  -- the second pooled layer (the change of format is the identity on extended reals): row p of the first layer, pooled
  refine (truncf_apply (ψ := .bf16) _ bitsLt_bf16_f32 (ix2 p k)).trans ?_
  refine (pool_sep_apply _ hD2 none _ c00 c01 c10 c11 b2 zf broadcasts_S1x320_S128x320 p k).trans ?_
  refine congrArg (fun r => poolRow zf r (fun k j => c00 (ix2 k j)) (fun k j => c01 (ix2 k j)) (fun k j => c10 (ix2 k j))
    (fun k j => c11 (ix2 k j)) (fun j => b2 (ix2 0 j)) k) (funext fun k' => ?_)
  -- the first pooled layer: row p of the image block, pooled
  refine (truncf_apply (ψ := .bf16) _ bitsLt_bf16_f32 (ix2 p k')).trans ?_
  refine (pool_sep_apply _ hD1 none _ a00 a01 a10 a11 b1 zf broadcasts_S1x1440_S128x1440 p k').trans ?_
  -- a cast of the image block to its own shape changes nothing
  rw [shapeCast_self]

end Cert.ReferenceIdeal.Body

end
-- ==== Proof.ReferenceIdealValue.lean ====
/-
  The reference program's result, as the one function of its arguments: the result buffer ends holding `NetSpec.Gout` of the
  thirteen argument arrays, and the arguments are kept.
-/
import proofs.«144946_g2000003217861111_pallasbulk_455_2_alg».proof.Proof.Gen.ReferenceIdeal.Frame
import proofs.«144946_g2000003217861111_pallasbulk_455_2_alg».proof.Proof.ReferenceIdealBody
import proofs.«144946_g2000003217861111_pallasbulk_455_2_alg».proof.Proof.NetSpec
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem
open Idealize.ShloMosaic.Pipeline (Dat)

namespace Cert.ReferenceIdeal.Val

open Cert.ReferenceIdeal Cert.ReferenceIdeal.Gen Idealize.ShloMosaic.ValueIdx Cert.LibRowNet Cert.NetSpec

variable (m : (ℓ : Loc nD τ sig) → Buf (Elt Ideal) ℓ) (ρ : Dev nD → PrngReg)

/-- The flattened images, as the grid finds them: the cast to the narrower format changes no value. -/
theorem images_eq (c : Dev nD) :
    (V m c main_v1 : S16384x784.Idx → EReal) = shapeCast (M2 16384 784) (m ((c.tc : Thread nD τ).loc main_arg0)) hflat := by
  dsimp only [V, V0]
  simp only [hostOps0, List.flatten_cons, List.flatten_nil, List.append_nil, List.cons_append, List.nil_append]
  after_results
  rfl

/-- Where the grid's points put their blocks: the image window and the result window at block row `t`, column block 0. -/
theorem idx_rows : ∀ t : Fin cfg0.N, win0_0.index t (0 : Fin 2) = t.val ∧ win0_0.index t (1 : Fin 2) = 0
    ∧ win0_13.index t (0 : Fin 2) = t.val ∧ win0_13.index t (1 : Fin 2) = 0 :=
  (by decide +kernel : ∀ t : Fin grid0.N, _)

/-- The image block at point `t` is rows `128 t … 128 t + 127` of the flattened images. -/
theorem images_blk (c : Dev nD) (t : Fin cfg0.N) (p : Fin 128) (k : Fin 784) (r : Fin 16384) (hr : r.val = 128 * t.val + p.val) :
    (iblk m c 0 t : Vec Ideal S128x784 .bf16) (ix2 p k) = (V m c main_v1 : S16384x784.Idx → EReal) (ix2 r k) := by
  obtain ⟨e0, e1, -, -⟩ := idx_rows t
  unfold iblk
  rw [View.read_apply]
  show V m c main_v1 _ = V m c main_v1 _
  congr 1
  funext a
  apply Fin.ext
  match a with
  | ⟨0, _⟩ => show win0_0.index t (0 : Fin 2) * 128 + 1 * p.val = r.val; rw [e0, hr]; omega
  | ⟨1, _⟩ => show win0_0.index t (1 : Fin 2) * 784 + 1 * k.val = k.val; rw [e1]; omega

/-- Every weight and bias window sits at block (0, 0) at every point. -/
theorem idx_whole : ∀ t : Fin cfg0.N, win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = 0 ∧ win0_10.index t (1 : Fin 2) = 0
    ∧ win0_11.index t (0 : Fin 2) = 0 ∧ win0_11.index t (1 : Fin 2) = 0
    ∧ win0_12.index t (0 : Fin 2) = 0 ∧ win0_12.index t (1 : Fin 2) = 0 :=
  (by decide +kernel : ∀ t : Fin grid0.N, _)

/-- The block of the first layer's first matrix at any point is the whole array, as launched. -/
theorem whole_blk1 (c : Dev nD) (t : Fin cfg0.N) :
    (iblk m c 1 t : Vec Ideal S784x1440 .bf16) = m ((c.tc : Thread nD τ).loc main_arg1) := by
  obtain ⟨e0, e1, -, -, -, -, -, -, -, -, -, -, -, -, -, -, -, -, -, -, -, -, -, -⟩ := idx_whole t
  rw [← V_main_arg1 m c]
  funext y
  unfold iblk
  rw [View.read_apply]
  show V m c main_arg1 _ = V m c main_arg1 _
  congr 1
  funext a
  apply Fin.ext
  match a with
  | ⟨0, _⟩ => show win0_1.index t (0 : Fin 2) * 784 + 1 * (y 0).val = (y 0).val; rw [e0]; omega
  | ⟨1, _⟩ => show win0_1.index t (1 : Fin 2) * 1440 + 1 * (y 1).val = (y 1).val; rw [e1]; omega

/-- The block of the first layer's second matrix at any point is the whole array, as launched. -/
theorem whole_blk2 (c : Dev nD) (t : Fin cfg0.N) :
    (iblk m c 2 t : Vec Ideal S784x1440 .bf16) = m ((c.tc : Thread nD τ).loc main_arg2) := by
  obtain ⟨-, -, e0, e1, -, -, -, -, -, -, -, -, -, -, -, -, -, -, -, -, -, -, -, -⟩ := idx_whole t
  rw [← V_main_arg2 m c]
  funext y
  unfold iblk
  rw [View.read_apply]
  show V m c main_arg2 _ = V m c main_arg2 _
  congr 1
  funext a
  apply Fin.ext
  match a with
  | ⟨0, _⟩ => show win0_2.index t (0 : Fin 2) * 784 + 1 * (y 0).val = (y 0).val; rw [e0]; omega
  | ⟨1, _⟩ => show win0_2.index t (1 : Fin 2) * 1440 + 1 * (y 1).val = (y 1).val; rw [e1]; omega

/-- The block of the first layer's third matrix at any point is the whole array, as launched. -/
theorem whole_blk3 (c : Dev nD) (t : Fin cfg0.N) :
    (iblk m c 3 t : Vec Ideal S784x1440 .bf16) = m ((c.tc : Thread nD τ).loc main_arg3) := by
  obtain ⟨-, -, -, -, e0, e1, -, -, -, -, -, -, -, -, -, -, -, -, -, -, -, -, -, -⟩ := idx_whole t
  rw [← V_main_arg3 m c]
  funext y
  unfold iblk
  rw [View.read_apply]
  show V m c main_arg3 _ = V m c main_arg3 _
  congr 1
  funext a
  apply Fin.ext
  match a with
  | ⟨0, _⟩ => show win0_3.index t (0 : Fin 2) * 784 + 1 * (y 0).val = (y 0).val; rw [e0]; omega
  | ⟨1, _⟩ => show win0_3.index t (1 : Fin 2) * 1440 + 1 * (y 1).val = (y 1).val; rw [e1]; omega

/-- The block of the first layer's fourth matrix at any point is the whole array, as launched. -/
theorem whole_blk4 (c : Dev nD) (t : Fin cfg0.N) :
    (iblk m c 4 t : Vec Ideal S784x1440 .bf16) = m ((c.tc : Thread nD τ).loc main_arg4) := by
  obtain ⟨-, -, -, -, -, -, e0, e1, -, -, -, -, -, -, -, -, -, -, -, -, -, -, -, -⟩ := idx_whole t
  rw [← V_main_arg4 m c]
  funext y
  unfold iblk
  rw [View.read_apply]
  show V m c main_arg4 _ = V m c main_arg4 _
  congr 1
  funext a
  apply Fin.ext
  match a with
  | ⟨0, _⟩ => show win0_4.index t (0 : Fin 2) * 784 + 1 * (y 0).val = (y 0).val; rw [e0]; omega
  | ⟨1, _⟩ => show win0_4.index t (1 : Fin 2) * 1440 + 1 * (y 1).val = (y 1).val; rw [e1]; omega

/-- The block of the first layer's bias at any point is the whole array, as launched. -/
theorem whole_blk5 (c : Dev nD) (t : Fin cfg0.N) :
    (iblk m c 5 t : Vec Ideal S1x1440 .f32) = m ((c.tc : Thread nD τ).loc main_arg5) := by
  obtain ⟨-, -, -, -, -, -, -, -, e0, e1, -, -, -, -, -, -, -, -, -, -, -, -, -, -⟩ := idx_whole t
  rw [← V_main_arg5 m c]
  funext y
  unfold iblk
  rw [View.read_apply]
  show V m c main_arg5 _ = V m c main_arg5 _
  congr 1
  funext a
  apply Fin.ext
  match a with
  | ⟨0, _⟩ => show win0_5.index t (0 : Fin 2) * 1 + 1 * (y 0).val = (y 0).val; rw [e0]; omega
  | ⟨1, _⟩ => show win0_5.index t (1 : Fin 2) * 1440 + 1 * (y 1).val = (y 1).val; rw [e1]; omega

/-- The block of the second layer's first matrix at any point is the whole array, as launched. -/
theorem whole_blk6 (c : Dev nD) (t : Fin cfg0.N) :
    (iblk m c 6 t : Vec Ideal S1440x320 .bf16) = m ((c.tc : Thread nD τ).loc main_arg6) := by
  obtain ⟨-, -, -, -, -, -, -, -, -, -, e0, e1, -, -, -, -, -, -, -, -, -, -, -, -⟩ := idx_whole t
  rw [← V_main_arg6 m c]
  funext y
  unfold iblk
  rw [View.read_apply]
  show V m c main_arg6 _ = V m c main_arg6 _
  congr 1
  funext a
  apply Fin.ext
  match a with
  | ⟨0, _⟩ => show win0_6.index t (0 : Fin 2) * 1440 + 1 * (y 0).val = (y 0).val; rw [e0]; omega
  | ⟨1, _⟩ => show win0_6.index t (1 : Fin 2) * 320 + 1 * (y 1).val = (y 1).val; rw [e1]; omega

/-- The block of the second layer's second matrix at any point is the whole array, as launched. -/
theorem whole_blk7 (c : Dev nD) (t : Fin cfg0.N) :
    (iblk m c 7 t : Vec Ideal S1440x320 .bf16) = m ((c.tc : Thread nD τ).loc main_arg7) := by
  obtain ⟨-, -, -, -, -, -, -, -, -, -, -, -, e0, e1, -, -, -, -, -, -, -, -, -, -⟩ := idx_whole t
  rw [← V_main_arg7 m c]
  funext y
  unfold iblk
  rw [View.read_apply]
  show V m c main_arg7 _ = V m c main_arg7 _
  congr 1
  funext a
  apply Fin.ext
  match a with
  | ⟨0, _⟩ => show win0_7.index t (0 : Fin 2) * 1440 + 1 * (y 0).val = (y 0).val; rw [e0]; omega
  | ⟨1, _⟩ => show win0_7.index t (1 : Fin 2) * 320 + 1 * (y 1).val = (y 1).val; rw [e1]; omega

/-- The block of the second layer's third matrix at any point is the whole array, as launched. -/
theorem whole_blk8 (c : Dev nD) (t : Fin cfg0.N) :
    (iblk m c 8 t : Vec Ideal S1440x320 .bf16) = m ((c.tc : Thread nD τ).loc main_arg8) := by
  obtain ⟨-, -, -, -, -, -, -, -, -, -, -, -, -, -, e0, e1, -, -, -, -, -, -, -, -⟩ := idx_whole t
  rw [← V_main_arg8 m c]
  funext y
  unfold iblk
  rw [View.read_apply]
  show V m c main_arg8 _ = V m c main_arg8 _
  congr 1
  funext a
  apply Fin.ext
  match a with
  | ⟨0, _⟩ => show win0_8.index t (0 : Fin 2) * 1440 + 1 * (y 0).val = (y 0).val; rw [e0]; omega
  | ⟨1, _⟩ => show win0_8.index t (1 : Fin 2) * 320 + 1 * (y 1).val = (y 1).val; rw [e1]; omega

/-- The block of the second layer's fourth matrix at any point is the whole array, as launched. -/
theorem whole_blk9 (c : Dev nD) (t : Fin cfg0.N) :
    (iblk m c 9 t : Vec Ideal S1440x320 .bf16) = m ((c.tc : Thread nD τ).loc main_arg9) := by
  obtain ⟨-, -, -, -, -, -, -, -, -, -, -, -, -, -, -, -, e0, e1, -, -, -, -, -, -⟩ := idx_whole t
  rw [← V_main_arg9 m c]
  funext y
  unfold iblk
  rw [View.read_apply]
  show V m c main_arg9 _ = V m c main_arg9 _
  congr 1
  funext a
  apply Fin.ext
  match a with
  | ⟨0, _⟩ => show win0_9.index t (0 : Fin 2) * 1440 + 1 * (y 0).val = (y 0).val; rw [e0]; omega
  | ⟨1, _⟩ => show win0_9.index t (1 : Fin 2) * 320 + 1 * (y 1).val = (y 1).val; rw [e1]; omega

/-- The block of the second layer's bias at any point is the whole array, as launched. -/
theorem whole_blk10 (c : Dev nD) (t : Fin cfg0.N) :
    (iblk m c 10 t : Vec Ideal S1x320 .f32) = m ((c.tc : Thread nD τ).loc main_arg10) := by
  obtain ⟨-, -, -, -, -, -, -, -, -, -, -, -, -, -, -, -, -, -, e0, e1, -, -, -, -⟩ := idx_whole t
  rw [← V_main_arg10 m c]
  funext y
  unfold iblk
  rw [View.read_apply]
  show V m c main_arg10 _ = V m c main_arg10 _
  congr 1
  funext a
  apply Fin.ext
  match a with
  | ⟨0, _⟩ => show win0_10.index t (0 : Fin 2) * 1 + 1 * (y 0).val = (y 0).val; rw [e0]; omega
  | ⟨1, _⟩ => show win0_10.index t (1 : Fin 2) * 320 + 1 * (y 1).val = (y 1).val; rw [e1]; omega

/-- The block of the last layer's matrix at any point is the whole array, as launched. -/
theorem whole_blk11 (c : Dev nD) (t : Fin cfg0.N) :
    (iblk m c 11 t : Vec Ideal S320x128 .bf16) = m ((c.tc : Thread nD τ).loc main_arg11) := by
  obtain ⟨-, -, -, -, -, -, -, -, -, -, -, -, -, -, -, -, -, -, -, -, e0, e1, -, -⟩ := idx_whole t
  rw [← V_main_arg11 m c]
  funext y
  unfold iblk
  rw [View.read_apply]
  show V m c main_arg11 _ = V m c main_arg11 _
  congr 1
  funext a
  apply Fin.ext
  match a with
  | ⟨0, _⟩ => show win0_11.index t (0 : Fin 2) * 320 + 1 * (y 0).val = (y 0).val; rw [e0]; omega
  | ⟨1, _⟩ => show win0_11.index t (1 : Fin 2) * 128 + 1 * (y 1).val = (y 1).val; rw [e1]; omega

/-- The block of the last layer's bias at any point is the whole array, as launched. -/
theorem whole_blk12 (c : Dev nD) (t : Fin cfg0.N) :
    (iblk m c 12 t : Vec Ideal S1x128 .f32) = m ((c.tc : Thread nD τ).loc main_arg12) := by
  obtain ⟨-, -, -, -, -, -, -, -, -, -, -, -, -, -, -, -, -, -, -, -, -, -, e0, e1⟩ := idx_whole t
  rw [← V_main_arg12 m c]
  funext y
  unfold iblk
  rw [View.read_apply]
  show V m c main_arg12 _ = V m c main_arg12 _
  congr 1
  funext a
  apply Fin.ext
  match a with
  | ⟨0, _⟩ => show win0_12.index t (0 : Fin 2) * 1 + 1 * (y 0).val = (y 0).val; rw [e0]; omega
  | ⟨1, _⟩ => show win0_12.index t (1 : Fin 2) * 128 + 1 * (y 1).val = (y 1).val; rw [e1]; omega

theorem hz : (![0, 0] : Fin 2 → Nat) = fun _ => 0 := funext fun a => by fin_cases a <;> rfl

/-- One entry of what a point stores, against the array of all results: if row `p` of the point's image block is row
    `r` of the images, entry `(p, j)` of the stored block is entry `(r, j)` of `Garr`. -/
theorem entry_eq (X : FVec Ideal (M2 16384 784) .f32) (x0 : Vec Ideal S128x784 .bf16)
    (a00 a01 a10 a11 : Vec Ideal S784x1440 .bf16) (b1 : Vec Ideal S1x1440 .f32)
    (c00 c01 c10 c11 : Vec Ideal S1440x320 .bf16) (b2 : Vec Ideal S1x320 .f32)
    (wfc : Vec Ideal S320x128 .bf16) (bfc : Vec Ideal S1x128 .f32)
    (p j : Fin 128) (r : Fin 16384) (hx : ∀ k : Fin 784, x0 (ix2 p k) = X (ix2 r k)) :
    k0_pay1 (F := Ideal) (k0_pay2 (F := Ideal) x0 a00 a01 a10 a11 b1 c00 c01 c10 c11) b2 wfc bfc (ix2 p j)
      = Garr X a00 a01 a10 a11 b1 c00 c01 c10 c11 b2 wfc bfc (ix2 r j) := by
  rw [Body.body_apply]
  show _ = netRow (fun k => X (ix2 r k)) a00 a01 a10 a11 b1 c00 c01 c10 c11 b2 wfc bfc j
  exact congrArg (fun q => netRow q a00 a01 a10 a11 b1 c00 c01 c10 c11 b2 wfc bfc j) (funext hx)

/-- All the images' results, of the arrays as launched on core `c`. -/
abbrev G (c : Dev nD) : FVec Ideal (M2 16384 128) .f32 :=
  Garr (shapeCast (M2 16384 784) (m ((c.tc : Thread nD τ).loc main_arg0)) hflat)
    (m ((c.tc : Thread nD τ).loc main_arg1)) (m ((c.tc : Thread nD τ).loc main_arg2)) (m ((c.tc : Thread nD τ).loc main_arg3))
    (m ((c.tc : Thread nD τ).loc main_arg4)) (m ((c.tc : Thread nD τ).loc main_arg5)) (m ((c.tc : Thread nD τ).loc main_arg6))
    (m ((c.tc : Thread nD τ).loc main_arg7)) (m ((c.tc : Thread nD τ).loc main_arg8)) (m ((c.tc : Thread nD τ).loc main_arg9))
    (m ((c.tc : Thread nD τ).loc main_arg10)) (m ((c.tc : Thread nD τ).loc main_arg11)) (m ((c.tc : Thread nD τ).loc main_arg12))

/-- What point `t` writes back is block `t` of the array of all results. -/
theorem flushed_eq (c : Dev nD) (t : Fin cfg0.N) :
    (dats m 0 c).flushed 13 t = ((cfg0.win 13).blk t).view.read (Elt Ideal) (G m c) := by
  show (cfg0.win 13).cut (grid0.coords t) ((dats m 0 c).after 13 t) = _
  rw [after0_13]
  unfold out0_13
  rw [View.canon_unit_zero hz]
  simp only [View.ld_unit_zero (S := S128x784) hz, View.ld_unit_zero (S := S784x1440) hz, View.ld_unit_zero (S := S1x1440) hz,
    View.ld_unit_zero (S := S1440x320) hz, View.ld_unit_zero (S := S1x320) hz, View.ld_unit_zero (S := S320x128) hz,
    View.ld_unit_zero (S := S1x128) hz]
  rw [whole_blk1, whole_blk2, whole_blk3, whole_blk4, whole_blk5, whole_blk6, whole_blk7, whole_blk8, whole_blk9,
    whole_blk10, whole_blk11, whole_blk12]
  obtain ⟨-, -, e0, e1⟩ := idx_rows t
  have hN : t.val < 128 := t.isLt.trans_eq N_0
  funext y
  obtain ⟨p, j, rfl⟩ : ∃ (p : Fin 128) (j : Fin 128), y = ix2 p j := ⟨y 0, y 1, eq_ix2 y⟩
  show _ = G m c (((cfg0.win 13).blk t).view.emb (ix2 p j))
  have hemb : ((cfg0.win 13).blk t).view.emb (ix2 p j) = ix2 (⟨128 * t.val + p.val, by omega⟩ : Fin 16384) j := by
    funext a
    apply Fin.ext
    match a with
    | ⟨0, _⟩ => show win0_13.index t (0 : Fin 2) * 128 + 1 * p.val = 128 * t.val + p.val; rw [e0]; omega
    | ⟨1, _⟩ => show win0_13.index t (1 : Fin 2) * 128 + 1 * j.val = j.val; rw [e1]; omega
  refine (entry_eq _ (iblk m c 0 t) _ _ _ _ _ _ _ _ _ _ _ _ p j ⟨128 * t.val + p.val, by omega⟩ fun k => ?_).trans
    (congrArg (G m c) hemb.symm)
  rw [← images_eq m c]
  exact images_blk m c t p k _ rfl

/-- An index of the result array lies in point `t`'s block iff each coordinate is in the block's range on its axis. -/
theorem mem_blk (t : Fin cfg0.N) (i : S16384x128.Idx) :
    i ∈ ((cfg0.win 13).blk t).view.set ↔ ∀ a : Fin 2, win0_13.index t a * S128x128.size a ≤ (i a).val
      ∧ (i a).val < win0_13.index t a * S128x128.size a + S128x128.size a := by
  show i ∈ ((View.whole main_v2).slice (win0_13.rect t)).set ↔ _
  rw [View.set_slice_whole, Rect.mem_set_unit]
  exact Iff.rfl

/-- Row `r` of the result array lies in the block of point `r / 128`: the blocks tile the rows, so after the last point
    the array holds every image's result. -/
theorem final (c : Dev nD) : (dats m 0 c).arrAt 13 cfg0.N = G m c :=
  (dats m 0 c).arrAt_eq_of_cover 13 (G m c) (fun t _ => flushed_eq m c t) fun i => by
    have h0 : (i 0).val < 16384 := (i 0).isLt
    have h1 : (i 1).val < 128 := (i 1).isLt
    obtain ⟨t, ht⟩ : ∃ t : Fin cfg0.N, t.val = (i 0).val / 128 :=
      ⟨⟨(i 0).val / 128, by rw [show cfg0.N = 128 from N_0]; omega⟩, rfl⟩
    obtain ⟨-, -, e0, e1⟩ := idx_rows t
    refine ⟨t, flush0_13 t, ?_⟩
    rw [mem_blk]
    intro a
    match a with
    | ⟨0, _⟩ =>
      show win0_13.index t (0 : Fin 2) * 128 ≤ (i 0).val ∧ (i 0).val < win0_13.index t (0 : Fin 2) * 128 + 128
      rw [e0, ht]; omega
    | ⟨1, _⟩ =>
      show win0_13.index t (1 : Fin 2) * 128 ≤ (i 1).val ∧ (i 1).val < win0_13.index t (1 : Fin 2) * 128 + 128
      rw [e1]; omega

/-- The line after the grid keeps the first ten columns of what the grid left in the result array. -/
theorem tail_eq (c : Dev nD) :
    Pipeline.afterTail₀ cfgs (dats m) 0 (V0 m) [hostOps1] c main_v3
      = extractStridedSlice S16384x10 ![0, 0] ((dats m 0 c).arrAt 13 cfg0.N) slices_S16384x128_S16384x10_0_0 := by
  unfold Pipeline.afterTail₀
  show StableHlo.after hostOps1 _ (Proc.devRef .tc main_v3) = _
  after_results
  rw [Pipeline.withArrays_arr spec0 launch0.win.arr_inj c _ _ 13]

/-- The run, read: the result at `Gout` of the arguments, the arguments unchanged. -/
theorem run : θ_run (defs (F := Ideal)) (onTc (τ := τ) (main (F := Ideal))) ⟨m, fun _ => 0, ρ⟩ (fun r => ∀ c : Dev nD,
      r.2.mem ((c.tc : Thread nD τ).loc main_v3) = Gout (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) := by
  refine (θ_run defs _ _).mono (fun r h c => ⟨?_, ?_⟩) (run_main m ρ)
  · refine ((h c).2 main_v3 (Pipeline.mem_restRefs_of main_v3 (by decide) (by decide))).trans ((tail_eq m c).trans ?_)
    rw [final]
    rfl
  · exact ⟨((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c))),
      ((h c).1 6).trans (((dats m 0 c).arrAt_in 6 rfl _).trans ((A_eq m c 6).trans (V_main_arg6 m c))),
      ((h c).1 7).trans (((dats m 0 c).arrAt_in 7 rfl _).trans ((A_eq m c 7).trans (V_main_arg7 m c))),
      ((h c).1 8).trans (((dats m 0 c).arrAt_in 8 rfl _).trans ((A_eq m c 8).trans (V_main_arg8 m c))),
      ((h c).1 9).trans (((dats m 0 c).arrAt_in 9 rfl _).trans ((A_eq m c 9).trans (V_main_arg9 m c))),
      ((h c).1 10).trans (((dats m 0 c).arrAt_in 10 rfl _).trans ((A_eq m c 10).trans (V_main_arg10 m c))),
      ((h c).1 11).trans (((dats m 0 c).arrAt_in 11 rfl _).trans ((A_eq m c 11).trans (V_main_arg11 m c))),
      ((h c).1 12).trans (((dats m 0 c).arrAt_in 12 rfl _).trans ((A_eq m c 12).trans (V_main_arg12 m c)))⟩

end Cert.ReferenceIdeal.Val

end
-- ==== Proof.lean ====
/-
  A small convolutional classifier, spelled two ways, computes one function.

  Both programs flatten 16384 images to rows of 784 pixels and send each row through two pooled dense layers (784 → 1440 → 320:
  the largest of the row's products with four matrices, plus a bias, clipped below at zero), a last dense layer onto 128 columns
  and the log-softmax of those, and keep the first ten columns. They differ in three ways, none of which changes a value on the
  extended reals: the kernel works on blocks of 256 rows and the reference on blocks of 128, and every operation acts row by row;
  the kernel multiplies once by the four matrices laid side by side and cuts the product's columns into four, where the reference
  multiplies four times — the same sums, entry by entry; and the kernel takes the largest of four as max (max a b) (max c d) where the
  reference takes max (max (max a b) c) d — `max` is associative. The casts between the two float formats are the identity at the
  ideal instance. So both result arrays are `NetSpec.Gout` of the thirteen arguments (KernelIdealValue, ReferenceIdealValue), and
  agreeing arguments give equal results. No finiteness of the inputs is used.
  The three programs run to their end with their arguments kept: the reference's frame is generated; the kernel's two (the printed
  program at the word-level instance and at the ideal one) are KernelFrame / KernelIdealFrame. The ideal pass rewrote nothing, so
  the idealization claim is empty.
-/
import proofs.«144946_g2000003217861111_pallasbulk_455_2_alg».proof.Defs
import proofs.«144946_g2000003217861111_pallasbulk_455_2_alg».proof.Proof.Gen.Kernel
import proofs.«144946_g2000003217861111_pallasbulk_455_2_alg».proof.Proof.Gen.KernelIdeal
import proofs.«144946_g2000003217861111_pallasbulk_455_2_alg».proof.Proof.Gen.ReferenceIdeal
import proofs.«144946_g2000003217861111_pallasbulk_455_2_alg».proof.Proof.Gen.ReferenceIdeal.Frame
import proofs.«144946_g2000003217861111_pallasbulk_455_2_alg».proof.Proof.Gen.Pre_finite_inputs
import proofs.«144946_g2000003217861111_pallasbulk_455_2_alg».proof.Proof.KernelFrame
import proofs.«144946_g2000003217861111_pallasbulk_455_2_alg».proof.Proof.KernelIdealFrame
import proofs.«144946_g2000003217861111_pallasbulk_455_2_alg».proof.Proof.KernelIdealValue
import proofs.«144946_g2000003217861111_pallasbulk_455_2_alg».proof.Proof.ReferenceIdealValue
import Idealize.ShloMosaic.Adequacy
import Idealize.ShloMosaic.Init

noncomputable section

namespace Cert.Proof

open Idealize.ShloMosaic Idealize.SL.Sem

theorem frame_kernel : Cert.frame_Kernel := fun m ρ _ => Cert.Kernel.Frame.frame m ρ

theorem frame_kernelIdeal : Cert.frame_KernelIdeal := fun m ρ _ => Cert.KernelIdeal.Frame.frame m ρ

theorem frame_referenceIdeal : Cert.frame_ReferenceIdeal := fun m ρ _ => Cert.ReferenceIdeal.Gen.frame m ρ

/-- The ideal pass rewrote no operation. -/
theorem preserves : Cert.preserves_Kernel_KernelIdeal := trivial

/-- Both runs end with the result at `Gout` of their own arguments; the arguments agree, so the results are equal. -/
theorem algebraic : Cert.algebraic_KernelIdeal_ReferenceIdeal := by
  intro m ρ m' ρ' _ hagree
  refine ⟨_, Cert.KernelIdeal.Val.run m ρ, ?_⟩
  refine (θ_run Cert.ReferenceIdeal.defs _ _).mono (fun _ h c => ⟨(h c).1.trans ?_, (h c).2⟩)
    (Cert.ReferenceIdeal.Val.run m' ρ')
  obtain ⟨e0, e1, e2, e3, e4, e5, e6, e7, e8, e9, e10, e11, e12⟩ := hagree c
  rw [e0, e1, e2, e3, e4, e5, e6, e7, e8, e9, e10, e11, e12]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
